-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8 : Shape := ⟨2, ![4096, 8]⟩
abbrev S64x37449 : Shape := ⟨2, ![64, 37449]⟩
abbrev S64 : Shape := ⟨1, ![64]⟩
abbrev S_ : Shape := ⟨0, ![]⟩

class Facts : Prop where
  bcast_S_S4096x8 : S_.BroadcastsInDim S4096x8 (![] : Fin 0 → Fin S4096x8.rank)
  reducesTo_S4096x8_S_d0_1 : S4096x8.ReducesTo [0, 1] S_
  h_S_ : 0 < S_.numel
  bcast_S_S64x37449 : S_.BroadcastsInDim S64x37449 (![] : Fin 0 → Fin S64x37449.rank)
  reducesTo_S64x37449_S_d0_1 : S64x37449.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S4096x8 .f32) (main_arg1 : FVec F S64x37449 .f32) (main_arg2 : FVec F S64 .f32) : IVec S_ 1 :=
  let main_v0 : FVec F S4096x8 .f32 := Host.absf main_arg0
  let main_cst : FVec F S_ .f32 := constant S_ .f32 0x7F800000#32
  let main_v1 : FVec F S4096x8 .f32 := broadcastInDim S4096x8 ![] bcast_S_S4096x8 main_cst
  let main_v2 : IVec S4096x8 1 := cmpf .olt main_v0 main_v1
  let main_c : IVec S_ 1 := constantI S_ 1 1#1
  let main_v3 : IVec S_ 1 := (fun x v => Host.reduce IntOp.andi x v reducesTo_S4096x8_S_d0_1 h_S_) main_v2 main_c
  let main_v4 : FVec F S64x37449 .f32 := Host.absf main_arg1
  let main_cst_0 : FVec F S_ .f32 := constant S_ .f32 0x7F800000#32
  let main_v5 : FVec F S64x37449 .f32 := broadcastInDim S64x37449 ![] bcast_S_S64x37449 main_cst_0
  let main_v6 : IVec S64x37449 1 := cmpf .olt main_v4 main_v5
  let main_c_1 : IVec S_ 1 := constantI S_ 1 1#1
  let main_v7 : IVec S_ 1 := (fun x v => Host.reduce IntOp.andi x v reducesTo_S64x37449_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S4096x8 : Shape := ⟨2, ![4096, 8]⟩
abbrev S64x37449 : Shape := ⟨2, ![64, 37449]⟩
abbrev S64 : Shape := ⟨1, ![64]⟩
abbrev S64x1 : Shape := ⟨2, ![64, 1]⟩
abbrev S1x64 : Shape := ⟨2, ![1, 64]⟩
abbrev S64x8 : Shape := ⟨2, ![64, 8]⟩
abbrev S8x64 : Shape := ⟨2, ![8, 64]⟩
abbrev S64x64 : Shape := ⟨2, ![64, 64]⟩
abbrev S64x512 : Shape := ⟨2, ![64, 512]⟩
abbrev S512x64 : Shape := ⟨2, ![512, 64]⟩
abbrev S64x4096 : Shape := ⟨2, ![64, 4096]⟩
abbrev S4096x64 : Shape := ⟨2, ![4096, 64]⟩
abbrev S64x32768 : Shape := ⟨2, ![64, 32768]⟩
abbrev S32768x64 : Shape := ⟨2, ![32768, 64]⟩
abbrev S256x8 : Shape := ⟨2, ![256, 8]⟩
abbrev S256x64 : Shape := ⟨2, ![256, 64]⟩
abbrev S256x8x1 : Shape := ⟨3, ![256, 8, 1]⟩
abbrev S256x1x8 : Shape := ⟨3, ![256, 1, 8]⟩
abbrev S256x8x8 : Shape := ⟨3, ![256, 8, 8]⟩
abbrev S256x64x1 : Shape := ⟨3, ![256, 64, 1]⟩
abbrev S256x64x8 : Shape := ⟨3, ![256, 64, 8]⟩
abbrev S256x512 : Shape := ⟨2, ![256, 512]⟩
abbrev S256x512x1 : Shape := ⟨3, ![256, 512, 1]⟩
abbrev S256x512x8 : Shape := ⟨3, ![256, 512, 8]⟩
abbrev S256x4096 : Shape := ⟨2, ![256, 4096]⟩

abbrev nBuf : Space → Nat
  | .hbm => 21
  | .vmem => 11
  | .smem => 0
  | _ => 0

abbrev bufTy : (tb : Table) → Fin (tcTables nBuf tb) → BufTy
  | .hbm, ⟨0, _⟩ => ⟨S4096x8, .f32⟩
  | .hbm, ⟨1, _⟩ => ⟨S64x37449, .f32⟩
  | .hbm, ⟨2, _⟩ => ⟨S64, .f32⟩
  | .hbm, ⟨3, _⟩ => ⟨S64x1, .f32⟩
  | .hbm, ⟨4, _⟩ => ⟨S1x64, .f32⟩
  | .hbm, ⟨5, _⟩ => ⟨S64x8, .f32⟩
  | .hbm, ⟨6, _⟩ => ⟨S8x64, .f32⟩
  | .hbm, ⟨7, _⟩ => ⟨S8x64, .bf16⟩
  | .hbm, ⟨8, _⟩ => ⟨S64x64, .f32⟩
  | .hbm, ⟨9, _⟩ => ⟨S64x64, .f32⟩
  | .hbm, ⟨10, _⟩ => ⟨S64x64, .bf16⟩
  | .hbm, ⟨11, _⟩ => ⟨S64x512, .f32⟩
  | .hbm, ⟨12, _⟩ => ⟨S512x64, .f32⟩
  | .hbm, ⟨13, _⟩ => ⟨S512x64, .bf16⟩
  | .hbm, ⟨14, _⟩ => ⟨S64x4096, .f32⟩
  | .hbm, ⟨15, _⟩ => ⟨S4096x64, .f32⟩
  | .hbm, ⟨16, _⟩ => ⟨S4096x64, .bf16⟩
  | .hbm, ⟨17, _⟩ => ⟨S64x32768, .f32⟩
  | .hbm, ⟨18, _⟩ => ⟨S32768x64, .f32⟩
  | .hbm, ⟨19, _⟩ => ⟨S32768x64, .bf16⟩
  | .hbm, ⟨20, _⟩ => ⟨S4096x64, .f32⟩
  | .local _ .vmem, ⟨0, _⟩ => ⟨S256x8, .f32⟩
  | .local _ .vmem, ⟨1, _⟩ => ⟨S256x8, .f32⟩
  | .local _ .vmem, ⟨2, _⟩ => ⟨S1x64, .f32⟩
  | .local _ .vmem, ⟨3, _⟩ => ⟨S8x64, .bf16⟩
  | .local _ .vmem, ⟨4, _⟩ => ⟨S64x64, .bf16⟩
  | .local _ .vmem, ⟨5, _⟩ => ⟨S512x64, .bf16⟩
  | .local _ .vmem, ⟨6, _⟩ => ⟨S4096x64, .bf16⟩
  | .local _ .vmem, ⟨7, _⟩ => ⟨S32768x64, .bf16⟩
  | .local _ .vmem, ⟨8, _⟩ => ⟨S64, .f32⟩
  | .local _ .vmem, ⟨9, _⟩ => ⟨S256x64, .f32⟩
  | .local _ .vmem, ⟨10, _⟩ => ⟨S256x64, .f32⟩
  | _, _ => ⟨S4096x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32768x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S64x37449_S64x1_0_0 : S64x37449.Slices ![0, 0] S64x1
  transposes_S64x1_S1x64_1_0 : S64x1.Transposes [1, 0] S1x64
  slices_S64x37449_S64x8_0_1 : S64x37449.Slices ![0, 1] S64x8
  transposes_S64x8_S8x64_1_0 : S64x8.Transposes [1, 0] S8x64
  bitsLt_bf16_f32 : FTy.bits .bf16 < FTy.bits .f32
  slices_S64x37449_S64x64_0_9 : S64x37449.Slices ![0, 9] S64x64
  transposes_S64x64_S64x64_1_0 : S64x64.Transposes [1, 0] S64x64
  slices_S64x37449_S64x512_0_73 : S64x37449.Slices ![0, 73] S64x512
  transposes_S64x512_S512x64_1_0 : S64x512.Transposes [1, 0] S512x64
  slices_S64x37449_S64x4096_0_585 : S64x37449.Slices ![0, 585] S64x4096
  transposes_S64x4096_S4096x64_1_0 : S64x4096.Transposes [1, 0] S4096x64
  slices_S64x37449_S64x32768_0_4681 : S64x37449.Slices ![0, 4681] S64x32768
  transposes_S64x32768_S32768x64_1_0 : S64x32768.Transposes [1, 0] S32768x64
  inb_S256x8_S256x8_0_0 : ∀ a, (![0, 0] : Fin 2 → Nat) a + S256x8.size a ≤ S256x8.size a
  h_S256x8 : 0 < S256x8.numel
  inb_S1x64_S1x64_0_0 : ∀ a, (![0, 0] : Fin 2 → Nat) a + S1x64.size a ≤ S1x64.size a
  h_S1x64 : 0 < S1x64.numel
  shapeCasts_S1x64_S64 : S1x64.ShapeCasts S64
  shapeCasts_S64_S1x64 : S64.ShapeCasts S1x64
  shapeCasts_S1x64_S1x64 : S1x64.ShapeCasts S1x64
  broadcasts_S1x64_S256x64 : S1x64.Broadcasts S256x64
  inb_S8x64_S8x64_0_0 : ∀ a, (![0, 0] : Fin 2 → Nat) a + S8x64.size a ≤ S8x64.size a
  h_S8x64 : 0 < S8x64.numel
  shapeCasts_S8x64_S8x64 : S8x64.ShapeCasts S8x64
  shapeCasts_S256x8_S256x8x1 : S256x8.ShapeCasts S256x8x1
  shapeCasts_S256x8_S256x1x8 : S256x8.ShapeCasts S256x1x8
  broadcasts_S256x8x1_S256x8x8 : S256x8x1.Broadcasts S256x8x8
  broadcasts_S256x1x8_S256x8x8 : S256x1x8.Broadcasts S256x8x8
  shapeCasts_S256x8x8_S256x64 : S256x8x8.ShapeCasts S256x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  shapeCasts_S256x64_S256x64x1 : S256x64.ShapeCasts S256x64x1
  broadcasts_S256x64x1_S256x64x8 : S256x64x1.Broadcasts S256x64x8
  broadcasts_S256x1x8_S256x64x8 : S256x1x8.Broadcasts S256x64x8
  shapeCasts_S256x64x8_S256x512 : S256x64x8.ShapeCasts S256x512
  inb_S512x64_S512x64_0_0 : ∀ a, (![0, 0] : Fin 2 → Nat) a + S512x64.size a ≤ S512x64.size a
  h_S512x64 : 0 < S512x64.numel
  shapeCasts_S512x64_S512x64 : S512x64.ShapeCasts S512x64
  shapeCasts_S256x512_S256x512x1 : S256x512.ShapeCasts S256x512x1
  broadcasts_S256x512x1_S256x512x8 : S256x512x1.Broadcasts S256x512x8
  broadcasts_S256x1x8_S256x512x8 : S256x1x8.Broadcasts S256x512x8
  shapeCasts_S256x512x8_S256x4096 : S256x512x8.ShapeCasts S256x4096
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S32768x64_S32768x64_0_0 : ∀ a, (![0, 0] : Fin 2 → Nat) a + S32768x64.size a ≤ S32768x64.size a
  h_S32768x64 : 0 < S32768x64.numel
  shapeCasts_S32768x64_S32768x64 : S32768x64.ShapeCasts S32768x64
  slices_S256x4096_o0_0_S256x512 : S256x4096.Slices ![0, 0] S256x512
  slices_S32768x64_o0_0_S4096x64 : S32768x64.Slices ![0, 0] S4096x64
  slices_S256x4096_o0_512_S256x512 : S256x4096.Slices ![0, 512] S256x512
  slices_S32768x64_o4096_0_S4096x64 : S32768x64.Slices ![4096, 0] S4096x64
  slices_S256x4096_o0_1024_S256x512 : S256x4096.Slices ![0, 1024] S256x512
  slices_S32768x64_o8192_0_S4096x64 : S32768x64.Slices ![8192, 0] S4096x64
  slices_S256x4096_o0_1536_S256x512 : S256x4096.Slices ![0, 1536] S256x512
  slices_S32768x64_o12288_0_S4096x64 : S32768x64.Slices ![12288, 0] S4096x64
  slices_S256x4096_o0_2048_S256x512 : S256x4096.Slices ![0, 2048] S256x512
  slices_S32768x64_o16384_0_S4096x64 : S32768x64.Slices ![16384, 0] S4096x64
  slices_S256x4096_o0_2560_S256x512 : S256x4096.Slices ![0, 2560] S256x512
  slices_S32768x64_o20480_0_S4096x64 : S32768x64.Slices ![20480, 0] S4096x64
  slices_S256x4096_o0_3072_S256x512 : S256x4096.Slices ![0, 3072] S256x512
  slices_S32768x64_o24576_0_S4096x64 : S32768x64.Slices ![24576, 0] S4096x64
  slices_S256x4096_o0_3584_S256x512 : S256x4096.Slices ![0, 3584] S256x512
  slices_S32768x64_o28672_0_S4096x64 : S32768x64.Slices ![28672, 0] S4096x64
  inb_S64_S64_0 : ∀ a, (![0] : Fin 1 → Nat) a + S64.size a ≤ S64.size a
  h_S64 : 0 < S64.numel
  inb_S256x64_S256x64_0_0 : ∀ a, (![0, 0] : Fin 2 → Nat) a + S256x64.size a ≤ S256x64.size a
  h_S256x64 : 0 < S256x64.numel
  dot_S256x8_S8x64_S256x64_1_0_0_1_n_n_wf : DotDims.WF S256x8 S8x64 S256x64 [1] [0] [0] [1] [] []
  dot_S256x64_S64x64_S256x64_1_0_0_1_n_n_wf : DotDims.WF S256x64 S64x64 S256x64 [1] [0] [0] [1] [] []
  dot_S256x512_S512x64_S256x64_1_0_0_1_n_n_wf : DotDims.WF S256x512 S512x64 S256x64 [1] [0] [0] [1] [] []
  dot_S256x4096_S4096x64_S256x64_1_0_0_1_n_n_wf : DotDims.WF S256x4096 S4096x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8.size a ≤ S4096x8.size a
  hwx0_0 : ∀ i : grid0.Coords, EltTy.bits .f32 = 32 ∨ (Rect.block (s := S4096x8) S256x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x64.size a ≤ S8x64.size a
  hwx0_2 : ∀ i : grid0.Coords, EltTy.bits .bf16 = 32 ∨ (Rect.block (s := S8x64) S8x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .bf16 = 32 ∨ (Rect.block (s := S64x64) S64x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x64.size a ≤ S512x64.size a
  hwx0_4 : ∀ i : grid0.Coords, EltTy.bits .bf16 = 32 ∨ (Rect.block (s := S512x64) S512x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096x64.size a ≤ S4096x64.size a
  hwx0_5 : ∀ i : grid0.Coords, EltTy.bits .bf16 = 32 ∨ (Rect.block (s := S4096x64) S4096x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32768x64.size a ≤ S32768x64.size a
  hwx0_6 : ∀ i : grid0.Coords, EltTy.bits .bf16 = 32 ∨ (Rect.block (s := S32768x64) S32768x64.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64.size a ≤ S64.size a
  hwx0_7 : ∀ i : grid0.Coords, EltTy.bits .f32 = 32 ∨ (Rect.block (s := S64) S64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x64.size a ≤ S4096x64.size a
  hwx0_8 : ∀ i : grid0.Coords, EltTy.bits .f32 = 32 ∨ (Rect.block (s := S4096x64) S256x64.size (cc0_transform_8 i) (hinb0_8 i)).WholeWords (EltTy.packing .f32)

variable [Facts₀]

def dot_S256x8_S8x64_S256x64_1_0_0_1_n_n : DotDims S256x8 S8x64 S256x64 where
  lhsContracting := [1]
  rhsContracting := [0]
  lhsNonContracting := [0]
  rhsNonContracting := [1]
  lhsBatch := []
  rhsBatch := []
  wf := dot_S256x8_S8x64_S256x64_1_0_0_1_n_n_wf
def dot_S256x64_S64x64_S256x64_1_0_0_1_n_n : DotDims S256x64 S64x64 S256x64 where
  lhsContracting := [1]
  rhsContracting := [0]
  lhsNonContracting := [0]
  rhsNonContracting := [1]
  lhsBatch := []
  rhsBatch := []
  wf := dot_S256x64_S64x64_S256x64_1_0_0_1_n_n_wf
def dot_S256x512_S512x64_S256x64_1_0_0_1_n_n : DotDims S256x512 S512x64 S256x64 where
  lhsContracting := [1]
  rhsContracting := [0]
  lhsNonContracting := [0]
  rhsNonContracting := [1]
  lhsBatch := []
  rhsBatch := []
  wf := dot_S256x512_S512x64_S256x64_1_0_0_1_n_n_wf
def dot_S256x4096_S4096x64_S256x64_1_0_0_1_n_n : DotDims S256x4096 S4096x64 S256x64 where
  lhsContracting := [1]
  rhsContracting := [0]
  lhsNonContracting := [0]
  rhsNonContracting := [1]
  lhsBatch := []
  rhsBatch := []
  wf := dot_S256x4096_S4096x64_S256x64_1_0_0_1_n_n_wf

abbrev win0_0 : Pipeline.Window sig grid0 :=
  Pipeline.Window.ofSpec (Memref.whole main_arg0) S256x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S8x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S512x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S4096x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S32768x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg2) S64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v17) S256x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4096x8 : Shape := ⟨2, ![4096, 8]⟩
abbrev S64x37449 : Shape := ⟨2, ![64, 37449]⟩
abbrev S64 : Shape := ⟨1, ![64]⟩
abbrev S_ : Shape := ⟨0, ![]⟩
abbrev S4096x1 : Shape := ⟨2, ![4096, 1]⟩
abbrev S4096x8x1 : Shape := ⟨3, ![4096, 8, 1]⟩
abbrev S4096x1x8 : Shape := ⟨3, ![4096, 1, 8]⟩
abbrev S4096x8x8 : Shape := ⟨3, ![4096, 8, 8]⟩
abbrev S4096x64 : Shape := ⟨2, ![4096, 64]⟩
abbrev S4096x64x1 : Shape := ⟨3, ![4096, 64, 1]⟩
abbrev S4096x64x8 : Shape := ⟨3, ![4096, 64, 8]⟩
abbrev S4096x512 : Shape := ⟨2, ![4096, 512]⟩
abbrev S4096x512x1 : Shape := ⟨3, ![4096, 512, 1]⟩
abbrev S4096x512x8 : Shape := ⟨3, ![4096, 512, 8]⟩
abbrev S4096x4096 : Shape := ⟨2, ![4096, 4096]⟩
abbrev S4096x4096x1 : Shape := ⟨3, ![4096, 4096, 1]⟩
abbrev S4096x4096x8 : Shape := ⟨3, ![4096, 4096, 8]⟩
abbrev S4096x32768 : Shape := ⟨2, ![4096, 32768]⟩
abbrev S4096x37449 : Shape := ⟨2, ![4096, 37449]⟩
abbrev S37449x64 : Shape := ⟨2, ![37449, 64]⟩
abbrev S1x64 : Shape := ⟨2, ![1, 64]⟩

abbrev nBuf : Space → Nat
  | .hbm => 35
  | .vmem => 0
  | .smem => 0
  | _ => 0

abbrev bufTy : (tb : Table) → Fin (tcTables nBuf tb) → BufTy
  | .hbm, ⟨0, _⟩ => ⟨S4096x8, .f32⟩
  | .hbm, ⟨1, _⟩ => ⟨S64x37449, .f32⟩
  | .hbm, ⟨2, _⟩ => ⟨S64, .f32⟩
  | .hbm, ⟨3, _⟩ => ⟨S_, .f32⟩
  | .hbm, ⟨4, _⟩ => ⟨S4096x1, .f32⟩
  | .hbm, ⟨5, _⟩ => ⟨S4096x8x1, .f32⟩
  | .hbm, ⟨6, _⟩ => ⟨S4096x1x8, .f32⟩
  | .hbm, ⟨7, _⟩ => ⟨S4096x8x8, .f32⟩
  | .hbm, ⟨8, _⟩ => ⟨S4096x8x8, .f32⟩
  | .hbm, ⟨9, _⟩ => ⟨S4096x8x8, .f32⟩
  | .hbm, ⟨10, _⟩ => ⟨S4096x64, .f32⟩
  | .hbm, ⟨11, _⟩ => ⟨S4096x64x1, .f32⟩
  | .hbm, ⟨12, _⟩ => ⟨S4096x1x8, .f32⟩
  | .hbm, ⟨13, _⟩ => ⟨S4096x64x8, .f32⟩
  | .hbm, ⟨14, _⟩ => ⟨S4096x64x8, .f32⟩
  | .hbm, ⟨15, _⟩ => ⟨S4096x64x8, .f32⟩
  | .hbm, ⟨16, _⟩ => ⟨S4096x512, .f32⟩
  | .hbm, ⟨17, _⟩ => ⟨S4096x512x1, .f32⟩
  | .hbm, ⟨18, _⟩ => ⟨S4096x1x8, .f32⟩
  | .hbm, ⟨19, _⟩ => ⟨S4096x512x8, .f32⟩
  | .hbm, ⟨20, _⟩ => ⟨S4096x512x8, .f32⟩
  | .hbm, ⟨21, _⟩ => ⟨S4096x512x8, .f32⟩
  | .hbm, ⟨22, _⟩ => ⟨S4096x4096, .f32⟩
  | .hbm, ⟨23, _⟩ => ⟨S4096x4096x1, .f32⟩
  | .hbm, ⟨24, _⟩ => ⟨S4096x1x8, .f32⟩
  | .hbm, ⟨25, _⟩ => ⟨S4096x4096x8, .f32⟩
  | .hbm, ⟨26, _⟩ => ⟨S4096x4096x8, .f32⟩
  | .hbm, ⟨27, _⟩ => ⟨S4096x4096x8, .f32⟩
  | .hbm, ⟨28, _⟩ => ⟨S4096x32768, .f32⟩
  | .hbm, ⟨29, _⟩ => ⟨S4096x37449, .f32⟩
  | .hbm, ⟨30, _⟩ => ⟨S37449x64, .f32⟩
  | .hbm, ⟨31, _⟩ => ⟨S4096x64, .f32⟩
  | .hbm, ⟨32, _⟩ => ⟨S1x64, .f32⟩
  | .hbm, ⟨33, _⟩ => ⟨S4096x64, .f32⟩
  | .hbm, ⟨34, _⟩ => ⟨S4096x64, .f32⟩
  | _, _ => ⟨S4096x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩

abbrev nD : Nat := 1
abbrev τ : Topo := Topo.v7x

variable {F : FTy → Type} [FloatOps F]

class Facts₀ : Prop where
  bcast_S_S4096x1 : S_.BroadcastsInDim S4096x1 (![] : Fin 0 → Fin S4096x1.rank)
  bcast_S4096x8_S4096x8x1_0_1 : S4096x8.BroadcastsInDim S4096x8x1 (![0, 1] : Fin 2 → Fin S4096x8x1.rank)
  bcast_S4096x8_S4096x1x8_0_2 : S4096x8.BroadcastsInDim S4096x1x8 (![0, 2] : Fin 2 → Fin S4096x1x8.rank)
  bcast_S4096x8x1_S4096x8x8_0_1_2 : S4096x8x1.BroadcastsInDim S4096x8x8 (![0, 1, 2] : Fin 3 → Fin S4096x8x8.rank)
  bcast_S4096x1x8_S4096x8x8_0_1_2 : S4096x1x8.BroadcastsInDim S4096x8x8 (![0, 1, 2] : Fin 3 → Fin S4096x8x8.rank)
  shapeCasts_S4096x8x8_S4096x64 : S4096x8x8.ShapeCasts S4096x64
  bcast_S4096x64_S4096x64x1_0_1 : S4096x64.BroadcastsInDim S4096x64x1 (![0, 1] : Fin 2 → Fin S4096x64x1.rank)
  bcast_S4096x64x1_S4096x64x8_0_1_2 : S4096x64x1.BroadcastsInDim S4096x64x8 (![0, 1, 2] : Fin 3 → Fin S4096x64x8.rank)
  bcast_S4096x1x8_S4096x64x8_0_1_2 : S4096x1x8.BroadcastsInDim S4096x64x8 (![0, 1, 2] : Fin 3 → Fin S4096x64x8.rank)
  shapeCasts_S4096x64x8_S4096x512 : S4096x64x8.ShapeCasts S4096x512
  bcast_S4096x512_S4096x512x1_0_1 : S4096x512.BroadcastsInDim S4096x512x1 (![0, 1] : Fin 2 → Fin S4096x512x1.rank)
  bcast_S4096x512x1_S4096x512x8_0_1_2 : S4096x512x1.BroadcastsInDim S4096x512x8 (![0, 1, 2] : Fin 3 → Fin S4096x512x8.rank)
  bcast_S4096x1x8_S4096x512x8_0_1_2 : S4096x1x8.BroadcastsInDim S4096x512x8 (![0, 1, 2] : Fin 3 → Fin S4096x512x8.rank)
  shapeCasts_S4096x512x8_S4096x4096 : S4096x512x8.ShapeCasts S4096x4096
  bcast_S4096x4096_S4096x4096x1_0_1 : S4096x4096.BroadcastsInDim S4096x4096x1 (![0, 1] : Fin 2 → Fin S4096x4096x1.rank)
  bcast_S4096x4096x1_S4096x4096x8_0_1_2 : S4096x4096x1.BroadcastsInDim S4096x4096x8 (![0, 1, 2] : Fin 3 → Fin S4096x4096x8.rank)
  bcast_S4096x1x8_S4096x4096x8_0_1_2 : S4096x1x8.BroadcastsInDim S4096x4096x8 (![0, 1, 2] : Fin 3 → Fin S4096x4096x8.rank)
  shapeCasts_S4096x4096x8_S4096x32768 : S4096x4096x8.ShapeCasts S4096x32768
  concatenates_S4096x1_S4096x8_S4096x64_S4096x512_S4096x4096_S4096x32768_S4096x37449_d1 : Shape.Concatenates [S4096x1, S4096x8, S4096x64, S4096x512, S4096x4096, S4096x32768] S4096x37449 1
  transposes_S64x37449_S37449x64_1_0 : S64x37449.Transposes [1, 0] S37449x64
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  dot_S4096x37449_S37449x64_S4096x64_1_0_0_1_n_n_wf : DotDims.WF S4096x37449 S37449x64 S4096x64 [1] [0] [0] [1] [] []

variable [Facts₀]

def dot_S4096x37449_S37449x64_S4096x64_1_0_0_1_n_n : DotDims S4096x37449 S37449x64 S4096x64 where
  lhsContracting := [1]
  rhsContracting := [0]
  lhsNonContracting := [0]
  rhsNonContracting := [1]
  lhsBatch := []
  rhsBatch := []
  wf := dot_S4096x37449_S37449x64_S4096x64_1_0_0_1_n_n_wf

class Facts : Prop extends Facts₀ where

variable [Facts]
-- ==== Proof.KronSpec.lean ====
/-
  The mathematics of this certificate, with no program in sight.

  A row x of eight extended reals has Kronecker powers: x⊗x of length 64 with entry k equal to x(k/8)·x(k%8), and each
  further power obtained the same way from the previous one, (p ⊗ x)(k) = p(k/8)·x(k%8), of lengths 512, 4096, 32768.
  The polynomial-feature layer sends the row to

      w0 + Σ x·w1 + Σ x⊗²·w2 + Σ x⊗³·w3 + Σ x⊗⁴·w4 + Σ x⊗⁵·w5 + β

  where w0 … w5 are the six consecutive stretches (of lengths 1, 8, 64, 512, 4096, 32768) of one weight row of length
  37449. Stated here: that function (poly, and G over whole arrays), and the two re-groupings of sums that relate it
  to the two programs — a sum over all 37449 feature positions is the sum of the six stretches' sums (sum_pieces), and
  the sum over the 32768 degree-five positions is the sum of eight consecutive chunks of 4096 (chunks), chunk c reading
  the fourth power at positions 512·c + k/8. Addition of extended reals is commutative and associative and
  multiplication has a unit, which is all that is used: no finiteness is needed.
-/
import Idealize.ShloMosaic.Lib.ValueIdx
import Mathlib.Algebra.BigOperators.Fin
import Mathlib.Logic.Equiv.Fin.Basic

noncomputable section

open scoped BigOperators

namespace Cert.Kron

open Idealize.ShloMosaic Idealize.ShloMosaic.ValueIdx

/-- One more Kronecker factor: entry k of p ⊗ x is p(k / 8) · x(k % 8). -/
def pow2 (x : Fin 8 → EReal) : Fin 64 → EReal :=
  fun k => x ⟨k.val / 8, by have := k.isLt; omega⟩ * x ⟨k.val % 8, by omega⟩
def pow3 (x : Fin 8 → EReal) : Fin 512 → EReal :=
  fun k => pow2 x ⟨k.val / 8, by have := k.isLt; omega⟩ * x ⟨k.val % 8, by omega⟩
def pow4 (x : Fin 8 → EReal) : Fin 4096 → EReal :=
  fun k => pow3 x ⟨k.val / 8, by have := k.isLt; omega⟩ * x ⟨k.val % 8, by omega⟩
def pow5 (x : Fin 8 → EReal) : Fin 32768 → EReal :=
  fun k => pow4 x ⟨k.val / 8, by have := k.isLt; omega⟩ * x ⟨k.val % 8, by omega⟩

/-- The layer on one row: the six stretches' contributions and the bias. -/
def poly (x : Fin 8 → EReal) (w0 : EReal) (w1 : Fin 8 → EReal) (w2 : Fin 64 → EReal) (w3 : Fin 512 → EReal)
    (w4 : Fin 4096 → EReal) (w5 : Fin 32768 → EReal) (β : EReal) : EReal :=
  w0 + ∑ k, x k * w1 k + ∑ k, pow2 x k * w2 k + ∑ k, pow3 x k * w3 k + ∑ k, pow4 x k * w4 k + ∑ k, pow5 x k * w5 k + β

/-- Chunk c (of eight) of the degree-five sum: positions 4096·c + k, k < 4096, whose fifth-power entry is the fourth
    power at 512·c + k / 8 times x(k % 8). -/
def chunk (x : Fin 8 → EReal) (w5 : Fin 32768 → EReal) (c : ℕ) (hc : c < 8) : EReal :=
  ∑ k : Fin 4096, (pow4 x ⟨512 * c + k.val / 8, by have := k.isLt; omega⟩ * x ⟨k.val % 8, by omega⟩)
    * w5 ⟨4096 * c + k.val, by have := k.isLt; omega⟩

theorem chunk_eq (x : Fin 8 → EReal) (w5 : Fin 32768 → EReal) (c : Fin 8) :
    ∑ j : Fin 4096, pow5 x (finProdFinEquiv (c, j)) * w5 (finProdFinEquiv (c, j)) = chunk x w5 c.val c.isLt := by
  unfold chunk
  refine Finset.sum_congr rfl fun j _ => ?_
  have hj := j.isLt
  have hc := c.isLt
  have e1 : (finProdFinEquiv (c, j) : Fin (8 * 4096)) = (⟨4096 * c.val + j.val, by omega⟩ : Fin 32768) :=
    Fin.ext (by show j.val + 4096 * c.val = 4096 * c.val + j.val; omega)
  rw [e1]
  unfold pow5
  congr 2
  · congr 1; apply Fin.ext; show (4096 * c.val + j.val) / 8 = 512 * c.val + j.val / 8; omega
  · congr 1; apply Fin.ext; show (4096 * c.val + j.val) % 8 = j.val % 8; omega

/-- The degree-five sum is the sum of its eight chunks. -/
theorem chunks (x : Fin 8 → EReal) (w5 : Fin 32768 → EReal) :
    ∑ k, pow5 x k * w5 k
      = chunk x w5 0 (by omega) + chunk x w5 1 (by omega) + chunk x w5 2 (by omega) + chunk x w5 3 (by omega)
        + chunk x w5 4 (by omega) + chunk x w5 5 (by omega) + chunk x w5 6 (by omega) + chunk x w5 7 (by omega) := by
  have h : ∑ k : Fin (8 * 4096), pow5 x k * w5 k = ∑ c : Fin 8, chunk x w5 c.val c.isLt := by
    rw [← finProdFinEquiv.sum_comp, Fintype.sum_prod_type]
    exact Finset.sum_congr rfl fun c _ => chunk_eq x w5 c
  refine h.trans ?_
  rw [Fin.sum_univ_eight]
  rfl

/-- A sum over the 37449 positions is the sum over the six stretches. -/
theorem sum_pieces' {M : Type*} [AddCommMonoid M] (f : Fin (1 + 8 + 64 + 512 + 4096 + 32768) → M) :
    ∑ t, f t = f ⟨0, by omega⟩ + ∑ k : Fin 8, f ⟨1 + k.val, by omega⟩ + ∑ k : Fin 64, f ⟨9 + k.val, by omega⟩
      + ∑ k : Fin 512, f ⟨73 + k.val, by omega⟩ + ∑ k : Fin 4096, f ⟨585 + k.val, by omega⟩
      + ∑ k : Fin 32768, f ⟨4681 + k.val, by omega⟩ := by
  rw [Fin.sum_univ_add, Fin.sum_univ_add, Fin.sum_univ_add, Fin.sum_univ_add, Fin.sum_univ_add, Fin.sum_univ_one]
  rfl

theorem sum_pieces {M : Type*} [AddCommMonoid M] (f : Fin 37449 → M) :
    ∑ t, f t = f ⟨0, by omega⟩ + ∑ k : Fin 8, f ⟨1 + k.val, by omega⟩ + ∑ k : Fin 64, f ⟨9 + k.val, by omega⟩
      + ∑ k : Fin 512, f ⟨73 + k.val, by omega⟩ + ∑ k : Fin 4096, f ⟨585 + k.val, by omega⟩
      + ∑ k : Fin 32768, f ⟨4681 + k.val, by omega⟩ :=
  sum_pieces' f

/-- The layer as the kernel adds it up: from zero, the constant stretch, the four low degrees, the eight chunks of
    degree five, the bias. -/
theorem poly_eq_chunked (x : Fin 8 → EReal) (w0 : EReal) (w1 : Fin 8 → EReal) (w2 : Fin 64 → EReal) (w3 : Fin 512 → EReal)
    (w4 : Fin 4096 → EReal) (w5 : Fin 32768 → EReal) (β : EReal) :
    0 + w0 + ∑ k, x k * w1 k + ∑ k, pow2 x k * w2 k + ∑ k, pow3 x k * w3 k + ∑ k, pow4 x k * w4 k
      + chunk x w5 0 (by omega) + chunk x w5 1 (by omega) + chunk x w5 2 (by omega) + chunk x w5 3 (by omega)
      + chunk x w5 4 (by omega) + chunk x w5 5 (by omega) + chunk x w5 6 (by omega) + chunk x w5 7 (by omega) + β
    = poly x w0 w1 w2 w3 w4 w5 β := by
  unfold poly
  rw [chunks, zero_add]
  simp only [add_assoc]

/-! ## Over whole arrays -/

/-- The layer over the arrays: row r of z against row q of W and entry q of b. -/
def G (z : (⟨2, ![4096, 8]⟩ : Shape).Idx → EReal) (W : (⟨2, ![64, 37449]⟩ : Shape).Idx → EReal)
    (b : (⟨1, ![64]⟩ : Shape).Idx → EReal) : (⟨2, ![4096, 64]⟩ : Shape).Idx → EReal :=
  fun i => poly (fun k => z (ix2 (i 0) k))
    (W (ix2 (i 1) ⟨0, by omega⟩))
    (fun k => W (ix2 (i 1) ⟨1 + k.val, by have := k.isLt; omega⟩))
    (fun k => W (ix2 (i 1) ⟨9 + k.val, by have := k.isLt; omega⟩))
    (fun k => W (ix2 (i 1) ⟨73 + k.val, by have := k.isLt; omega⟩))
    (fun k => W (ix2 (i 1) ⟨585 + k.val, by have := k.isLt; omega⟩))
    (fun k => W (ix2 (i 1) ⟨4681 + k.val, by have := k.isLt; omega⟩))
    (b (ix1 (i 1)))

/-- The layer over one grid point's blocks: 256 rows of z, the six transposed stretches of W, and b. -/
def Gblk (x0 : (⟨2, ![256, 8]⟩ : Shape).Idx → EReal) (x1 : (⟨2, ![1, 64]⟩ : Shape).Idx → EReal)
    (x2 : (⟨2, ![8, 64]⟩ : Shape).Idx → EReal) (x3 : (⟨2, ![64, 64]⟩ : Shape).Idx → EReal)
    (x4 : (⟨2, ![512, 64]⟩ : Shape).Idx → EReal) (x5 : (⟨2, ![4096, 64]⟩ : Shape).Idx → EReal)
    (x6 : (⟨2, ![32768, 64]⟩ : Shape).Idx → EReal) (x7 : (⟨1, ![64]⟩ : Shape).Idx → EReal) :
    (⟨2, ![256, 64]⟩ : Shape).Idx → EReal :=
  fun y => poly (fun k => x0 (ix2 (y 0) k)) (x1 (ix2 (0 : Fin 1) (y 1))) (fun k => x2 (ix2 k (y 1))) (fun k => x3 (ix2 k (y 1)))
    (fun k => x4 (ix2 k (y 1))) (fun k => x5 (ix2 k (y 1))) (fun k => x6 (ix2 k (y 1))) (x7 (ix1 (y 1)))

end Cert.Kron

end
-- ==== Proof.LibOuterDot.lean ====
/-
  Two readings at an index, for any sizes, at the ideal values.

  * A block u of shape [R, n] and a block x of shape [R, m], each given a unit axis, broadcast against each other to
    [R, n, m], multiplied and flattened to [R, n·m]: entry (p, k) is u(p, k / m) · x(p, k % m) — the row-wise
    Kronecker product.
  * A matrix product [M, K] × [K, N] into a zero accumulator: entry (p, q) is Σ over k < K of A(p, k) · B(k, q), a sum
    over Fin K, given where the dimension numbers send an output index and a contraction index.
-/
import Idealize.ShloMosaic.Lib.ValueIdx
import Idealize.ShloMosaic.Lib.Pipeline.Value
import Idealize.ShloMosaic.PureOps.Ideal.Laws

noncomputable section

open scoped BigOperators

namespace Cert.LibOuterDot

open Idealize.ShloMosaic Idealize.ShloMosaic.ValueIdx

/-- The row-wise Kronecker product read at (p, k): u at column k / m times x at column k % m. -/
theorem outer_flat_apply (R n m N : ℕ) (hn : 1 < n) (hm : 1 < m) (hN : N = n * m)
    (u : (⟨2, ![R, n]⟩ : Shape).Idx → EReal) (x : (⟨2, ![R, m]⟩ : Shape).Idx → EReal)
    (h1 : (⟨2, ![R, n]⟩ : Shape).ShapeCasts ⟨3, ![R, n, 1]⟩)
    (h2 : (⟨2, ![R, m]⟩ : Shape).ShapeCasts ⟨3, ![R, 1, m]⟩)
    (h3 : (⟨3, ![R, n, 1]⟩ : Shape).Broadcasts ⟨3, ![R, n, m]⟩)
    (h4 : (⟨3, ![R, 1, m]⟩ : Shape).Broadcasts ⟨3, ![R, n, m]⟩)
    (h5 : (⟨3, ![R, n, m]⟩ : Shape).ShapeCasts ⟨2, ![R, N]⟩)
    (p : Fin R) (k : Fin N) (a : Fin n) (b : Fin m) (ha : a.val = k.val / m) (hb : b.val = k.val % m) :
    shapeCast ⟨2, ![R, N]⟩ (mulf (F := Ideal) (φ := .f32)
        (broadcastTo ⟨3, ![R, n, m]⟩ (shapeCast ⟨3, ![R, n, 1]⟩ u h1) h3)
        (broadcastTo ⟨3, ![R, n, m]⟩ (shapeCast ⟨3, ![R, 1, m]⟩ x h2) h4)) h5 (ix2 p k)
      = u (ix2 p a) * x (ix2 p b) := by
  subst hN
  refine (shapeCast_apply _ h5 (ix2 p k) (ix3 p a b) ?_).trans ?_
  · rw [Shape.rowMajor_val_three, Shape.rowMajor_val_two]
    show (p.val * n + a.val) * m + b.val = p.val * (n * m) + k.val
    have e : k.val / m * m + k.val % m = k.val := Nat.div_add_mod' _ _
    rw [ha, hb, Nat.add_mul, Nat.mul_assoc, Nat.add_assoc, e]
  · rw [mulf_apply]
    congr 1
    · refine (broadcastTo_apply _ h3 (ix3 p a b) (ix3 p a (0 : Fin 1)) ?_).trans ?_
      · intro ax
        match ax with
        | ⟨0, _⟩ =>
          show p.val = if R = 1 then 0 else p.val
          split
          · have := p.isLt; omega
          · rfl
        | ⟨1, _⟩ =>
          show a.val = if n = 1 then 0 else a.val
          rw [if_neg (by omega)]
        | ⟨2, _⟩ => rfl
      · refine shapeCast_apply u h1 _ (ix2 p a) ?_
        rw [Shape.rowMajor_val_three, Shape.rowMajor_val_two]
        show p.val * n + a.val = (p.val * n + a.val) * 1 + 0
        omega
    · refine (broadcastTo_apply _ h4 (ix3 p a b) (ix3 p (0 : Fin 1) b) ?_).trans ?_
      · intro ax
        match ax with
        | ⟨0, _⟩ =>
          show p.val = if R = 1 then 0 else p.val
          split
          · have := p.isLt; omega
          · rfl
        | ⟨1, _⟩ => rfl
        | ⟨2, _⟩ =>
          show b.val = if m = 1 then 0 else b.val
          rw [if_neg (by omega)]
      · refine shapeCast_apply x h2 _ (ix2 p b) ?_
        rw [Shape.rowMajor_val_three, Shape.rowMajor_val_two]
        show p.val * m + b.val = (p.val * 1 + 0) * m + b.val
        rw [Nat.mul_one, Nat.add_zero]

/-- With no batch axes and one free axis a on the left, the left operand's index has the output's coordinate b there,
    b the first output axis. -/
theorem lhs_free_val {sl sr so : Shape} (d : DotDims sl sr so) (a : Fin sl.rank) (b : Fin so.rank)
    (hlb : d.lhsBatch = []) (hln : d.lhsNonContracting = [a]) (hb : b.val = 0) (j : so.Idx) (k : d.contr.Idx) :
    (d.lhsIdx j k a).val = (j b).val := by
  have hnb : a ∉ d.lhsBatch := by rw [hlb]; exact List.not_mem_nil
  have hmn : a ∈ d.lhsNonContracting := by rw [hln]; exact List.mem_singleton.mpr rfl
  unfold DotDims.lhsIdx
  rw [dif_neg hnb, dif_pos hmn]
  simp only [Fin.val_cast]
  have key : ∀ (p q : Nat) (hp : p < so.rank) (hq : q < so.rank), p = q → (j ⟨p, hp⟩).val = (j ⟨q, hq⟩).val :=
    fun p q hp hq h => by subst h; rfl
  exact key _ _ _ b.isLt (by simp [hlb, hln, hb])

/-- With no batch axes, one free axis on the left and one free axis a on the right, the right operand's index has the
    output's coordinate b there, b the second output axis. -/
theorem rhs_free_val {sl sr so : Shape} (d : DotDims sl sr so) (a : Fin sr.rank) (b : Fin so.rank) (a' : Fin sl.rank)
    (hlb : d.lhsBatch = []) (hrb : d.rhsBatch = []) (hln : d.lhsNonContracting = [a']) (hrn : d.rhsNonContracting = [a])
    (hb : b.val = 1) (j : so.Idx) (k : d.contr.Idx) :
    (d.rhsIdx j k a).val = (j b).val := by
  have hnb : a ∉ d.rhsBatch := by rw [hrb]; exact List.not_mem_nil
  have hmn : a ∈ d.rhsNonContracting := by rw [hrn]; exact List.mem_singleton.mpr rfl
  unfold DotDims.rhsIdx
  rw [dif_neg hnb, dif_pos hmn]
  simp only [Fin.val_cast]
  have key : ∀ (p q : Nat) (hp : p < so.rank) (hq : q < so.rank), p = q → (j ⟨p, hp⟩).val = (j ⟨q, hq⟩).val :=
    fun p q hp hq h => by subst h; rfl
  exact key _ _ _ b.isLt (by simp [hlb, hln, hrn, hb])

/-- A matrix product into the zero accumulator read at (p, q), given where the dimension numbers send the indices:
    the sum over k < K of A(p, k) · B(k, q). -/
theorem matmul_zero_ix2_of {M K N : ℕ} {φ₁ φ₂ : FTy}
    (d : DotDims ⟨2, ![M, K]⟩ ⟨2, ![K, N]⟩ ⟨2, ![M, N]⟩) (hr : d.contr.rank = 1) (hs : d.contr.size ⟨0, by omega⟩ = K)
    (l0 : ∀ i q, (d.lhsIdx i q 0).val = (i 0).val) (l1 : ∀ i q, (d.lhsIdx i q 1).val = (q ⟨0, by omega⟩).val)
    (r0 : ∀ i q, (d.rhsIdx i q 0).val = (q ⟨0, by omega⟩).val) (r1 : ∀ i q, (d.rhsIdx i q 1).val = (i 1).val)
    (prec : Option ContractPrecision) (A : FVec Ideal ⟨2, ![M, K]⟩ φ₁) (B : FVec Ideal ⟨2, ![K, N]⟩ φ₂) (p : Fin M) (q : Fin N) :
    matmul d prec A B (constant ⟨2, ![M, N]⟩ .f32 0x00000000#32) (ix2 p q) = ∑ k : Fin K, A (ix2 p k) * B (ix2 k q) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact l0 _ _
    | ⟨1, _⟩ => exact (l1 _ _).trans hk)
  have er : d.rhsIdx (ix2 p q) ((contrEquiv1 d K hr hs).symm k) = ix2 k q := funext fun a => Fin.ext (by
    match a with
    | ⟨0, _⟩ => exact (r0 _ _).trans hk
    | ⟨1, _⟩ => exact r1 _ _)
  rw [el, er]

/-- A plain matrix product — left operand contracted on its second axis, right on its first, no batch axes — into
    the zero accumulator, read at (p, q): the sum over k < K of A(p, k) · B(k, q). -/
theorem matmul_zero_ix2 {M K N : ℕ} {φ₁ φ₂ : FTy}
    (d : DotDims ⟨2, ![M, K]⟩ ⟨2, ![K, N]⟩ ⟨2, ![M, N]⟩) (hr : d.contr.rank = 1) (hs : d.contr.size ⟨0, by omega⟩ = K)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂) (p : Fin M) (q : Fin N) :
    matmul d prec A B (constant ⟨2, ![M, N]⟩ .f32 0x00000000#32) (ix2 p q) = ∑ k : Fin K, A (ix2 p k) * B (ix2 k q) :=
  matmul_zero_ix2_of d hr hs
    (fun i q => lhs_free_val d 0 0 hlb hln rfl i q)
    (fun i q => d.lhsIdx_val_of_single hlc i q)
    (fun i q => d.rhsIdx_val_of_single hrc i q)
    (fun i q => rhs_free_val d 1 1 0 hlb hrb hln hrn rfl i q)
    prec A B p q

end Cert.LibOuterDot

end
-- ==== Proof.Payload.lean ====
/-
  What the kernel body stores, read at one entry (p, q) of its 256 × 64 output block, at the ideal values.

  The body builds the Kronecker powers of each row of its z block one factor at a time (outer product with the row,
  flattened), so its second, third and fourth powers at (p, k) are pow2, pow3, pow4 of row p (pay2_at, pay3_at,
  pay5_at); each degree's contribution is a matrix product of a power block with the matching transposed stretch of
  W, which at (p, q) is the sum over the stretch of power entry times weight (mm8 … mm4096); the fifth degree is eight
  such products, chunk c taking columns 512·c … 512·c + 511 of the fourth power, multiplying by the row once more, and
  meeting rows 4096·c … of the last stretch (kchunk_at). Added up from zero, with the constant stretch first and the bias
  last, that is the layer of the specification on the block (out_eq).
-/
import proofs.«114076_j77111842832565_1_alg».proof.Proof.Gen.KernelIdeal.Frame
import proofs.«114076_j77111842832565_1_alg».proof.Proof.KronSpec
import proofs.«114076_j77111842832565_1_alg».proof.Proof.LibOuterDot
import Idealize.ShloMosaic.Lib.ValueLayout

noncomputable section

open scoped BigOperators

namespace Cert.KernelIdeal.Payload

open Cert.KernelIdeal Cert.KernelIdeal.Gen Cert.KernelIdeal.Facts₀ Idealize.ShloMosaic Idealize.ShloMosaic.ValueIdx Cert.Kron Cert.LibOuterDot

/-! ## The powers of a row -/

/-- The body's second power at (p, k) is the second Kronecker power of row p. -/
theorem pay2_at (x0 : Vec Ideal S256x8 .f32) (p : Fin 256) (k : Fin 64) :
    k0_pay2 (F := Ideal) x0 (ix2 p k) = pow2 (fun a => x0 (ix2 p a)) k := by
  have hk := k.isLt
  unfold k0_pay2
  exact outer_flat_apply 256 8 8 64 (by omega) (by omega) rfl x0 x0 _ _ _ _ _ p k ⟨k.val / 8, by omega⟩ ⟨k.val % 8, by omega⟩ rfl rfl

/-- The third. -/
theorem pay3_at (x0 : Vec Ideal S256x8 .f32) (p : Fin 256) (k : Fin 512) :
    k0_pay3 (F := Ideal) x0 (ix2 p k) = pow3 (fun a => x0 (ix2 p a)) k := by
  have hk := k.isLt
  unfold k0_pay3
  refine (outer_flat_apply 256 64 8 512 (by omega) (by omega) rfl (k0_pay2 (F := Ideal) x0) x0 _ _ _ _ _ p k ⟨k.val / 8, by omega⟩ ⟨k.val % 8, by omega⟩ rfl rfl).trans ?_
  rw [pay2_at]
  rfl

/-- The fourth. -/
theorem pay5_at (x0 : Vec Ideal S256x8 .f32) (p : Fin 256) (k : Fin 4096) :
    k0_pay5 (F := Ideal) x0 (ix2 p k) = pow4 (fun a => x0 (ix2 p a)) k := by
  have hk := k.isLt
  unfold k0_pay5
  refine (outer_flat_apply 256 512 8 4096 (by omega) (by omega) rfl (k0_pay3 (F := Ideal) x0) x0 _ _ _ _ _ p k ⟨k.val / 8, by omega⟩ ⟨k.val % 8, by omega⟩ rfl rfl).trans ?_
  rw [pay3_at]
  rfl

/-! ## The four matrix products -/

/-- The [256, 8] × [8, 64] product into zero at (p, q): the sum over the 8 contracted positions. -/
theorem mm8 {φ₁ φ₂ : FTy} (A : FVec Ideal S256x8 φ₁) (B : FVec Ideal S8x64 φ₂) (p : Fin 256) (q : Fin 64) :
    matmul dot_S256x8_S8x64_S256x64_1_0_0_1_n_n none A B (constant S256x64 .f32 0x00000000#32) (ix2 p q)
      = ∑ k : Fin 8, A (ix2 p k) * B (ix2 k q) :=
  matmul_zero_ix2 dot_S256x8_S8x64_S256x64_1_0_0_1_n_n rfl rfl rfl rfl rfl rfl rfl rfl none A B p q

/-- The [256, 64] × [64, 64] product. -/
theorem mm64 {φ₁ φ₂ : FTy} (A : FVec Ideal S256x64 φ₁) (B : FVec Ideal S64x64 φ₂) (p : Fin 256) (q : Fin 64) :
    matmul dot_S256x64_S64x64_S256x64_1_0_0_1_n_n none A B (constant S256x64 .f32 0x00000000#32) (ix2 p q)
      = ∑ k : Fin 64, A (ix2 p k) * B (ix2 k q) :=
  matmul_zero_ix2 dot_S256x64_S64x64_S256x64_1_0_0_1_n_n rfl rfl rfl rfl rfl rfl rfl rfl none A B p q

/-- The [256, 512] × [512, 64] product. -/
theorem mm512 {φ₁ φ₂ : FTy} (A : FVec Ideal S256x512 φ₁) (B : FVec Ideal S512x64 φ₂) (p : Fin 256) (q : Fin 64) :
    matmul dot_S256x512_S512x64_S256x64_1_0_0_1_n_n none A B (constant S256x64 .f32 0x00000000#32) (ix2 p q)
      = ∑ k : Fin 512, A (ix2 p k) * B (ix2 k q) :=
  matmul_zero_ix2 dot_S256x512_S512x64_S256x64_1_0_0_1_n_n rfl rfl rfl rfl rfl rfl rfl rfl none A B p q

/-- The [256, 4096] × [4096, 64] product. -/
theorem mm4096 {φ₁ φ₂ : FTy} (A : FVec Ideal S256x4096 φ₁) (B : FVec Ideal S4096x64 φ₂) (p : Fin 256) (q : Fin 64) :
    matmul dot_S256x4096_S4096x64_S256x64_1_0_0_1_n_n none A B (constant S256x64 .f32 0x00000000#32) (ix2 p q)
      = ∑ k : Fin 4096, A (ix2 p k) * B (ix2 k q) :=
  matmul_zero_ix2 dot_S256x4096_S4096x64_S256x64_1_0_0_1_n_n rfl rfl rfl rfl rfl rfl rfl rfl none A B p q

/-! ## The accumulator, stage by stage -/

/-- The constant stretch's row, re-cast and broadcast down the 256 rows, read at (p, q): its entry q. -/
theorem const_row_at (x1 : Vec Ideal S1x64 .f32) (h1 : S1x64.ShapeCasts S64) (h2 : S64.ShapeCasts S1x64) (h3 : S1x64.ShapeCasts S1x64)
    (h4 : S1x64.Broadcasts S256x64) (p : Fin 256) (q : Fin 64) :
    broadcastTo S256x64 (shapeCast S1x64 (shapeCast S1x64 (shapeCast S64 x1 h1) h2) h3) h4 (ix2 p q) = x1 (ix2 (0 : Fin 1) q) := by
  rw [broadcastTo_1b_ab_apply, shapeCast_self, shapeCast_a_1a_apply, shapeCast_1a_a_apply]

/-- The bias, given a unit axis and broadcast down the rows, read at (p, q): its entry q. -/
theorem bias_at (x7 : Vec Ideal S64 .f32) (h1 : S64.ShapeCasts S1x64) (h2 : S1x64.Broadcasts S256x64) (p : Fin 256) (q : Fin 64) :
    broadcastTo S256x64 (shapeCast S1x64 x7 h1) h2 (ix2 p q) = x7 (ix1 q) := by
  rw [broadcastTo_1b_ab_apply, shapeCast_a_1a_apply]

/-- After the constant stretch and degrees one to three. -/
theorem pay4_at (x0 : Vec Ideal S256x8 .f32) (x1 : Vec Ideal S1x64 .f32) (x2 : Vec Ideal S8x64 .bf16) (x3 : Vec Ideal S64x64 .bf16)
    (x4 : Vec Ideal S512x64 .bf16) (p : Fin 256) (q : Fin 64) :
    k0_pay4 (F := Ideal) x0 x1 x2 x3 x4 (ix2 p q)
      = 0 + x1 (ix2 (0 : Fin 1) q) + ∑ k : Fin 8, x0 (ix2 p k) * x2 (ix2 k q)
        + ∑ k : Fin 64, pow2 (fun a => x0 (ix2 p a)) k * x3 (ix2 k q)
        + ∑ k : Fin 512, pow3 (fun a => x0 (ix2 p a)) k * x4 (ix2 k q) := by
  unfold k0_pay4
  simp only [addf_apply]
  rw [mm8, mm64, mm512, const_row_at]
  have h0 : broadcast S256x64 (FloatOps.ofBits (F := Ideal) FTy.f32 0#32) (ix2 p q) = (0 : EReal) := Ideal.ofBits_zero_f32
  rw [h0]
  simp only [truncf_apply, shapeCast_self, pay2_at, pay3_at]

/-- One chunk's sum at (p, q): over k < 4096, a block v (the fourth power) at column o4 + k / 8, times row p of the z
    block at k % 8, times the last stretch at row o5 + k. -/
def ksum (x0 : Vec Ideal S256x8 .f32) (v : FVec Ideal S256x4096 .f32) (w : FVec Ideal S32768x64 .bf16) (p : Fin 256) (q : Fin 64)
    (o4 o5 : ℕ) (ho4 : o4 + 512 ≤ 4096) (ho5 : o5 + 4096 ≤ 32768) : EReal :=
  ∑ k : Fin 4096, (v (ix2 p ⟨o4 + k.val / 8, by have := k.isLt; omega⟩) * x0 (ix2 p ⟨k.val % 8, by omega⟩))
    * w (ix2 ⟨o5 + k.val, by have := k.isLt; omega⟩ q)

/-- A chunk's matrix product read at (p, q): 512 columns of v from o4, multiplied out by the row and flattened,
    against 4096 rows of w from o5. -/
theorem kchunk_at (x0 : Vec Ideal S256x8 .f32) (v : FVec Ideal S256x4096 .f32) (w : FVec Ideal S32768x64 .bf16) (o4 o5 : ℕ)
    (hs4 : S256x4096.Slices ![0, o4] S256x512) (hs5 : S32768x64.Slices ![o5, 0] S4096x64)
    (h1 : S256x512.ShapeCasts S256x512x1) (h2 : S256x8.ShapeCasts S256x1x8) (h3 : S256x512x1.Broadcasts S256x512x8)
    (h4 : S256x1x8.Broadcasts S256x512x8) (h5 : S256x512x8.ShapeCasts S256x4096) (hb : FTy.bits .bf16 < FTy.bits .f32)
    (p : Fin 256) (q : Fin 64) :
    matmul dot_S256x4096_S4096x64_S256x64_1_0_0_1_n_n none
      (truncf .bf16 (shapeCast S256x4096 (mulf (broadcastTo S256x512x8 (shapeCast S256x512x1 (extractStridedSlice S256x512 ![0, o4] v hs4) h1) h3)
        (broadcastTo S256x512x8 (shapeCast S256x1x8 x0 h2) h4)) h5) hb)
      (extractStridedSlice S4096x64 ![o5, 0] w hs5) (constant S256x64 .f32 0x00000000#32) (ix2 p q)
    = ksum x0 v w p q o4 o5 (hs4.2 1) (hs5.2 0) := by
  have ho4 : o4 + 512 ≤ 4096 := hs4.2 1
  have ho5 : o5 + 4096 ≤ 32768 := hs5.2 0
  rw [mm4096]
  unfold ksum
  refine Finset.sum_congr rfl fun k _ => ?_
  have hk := k.isLt
  rw [truncf_apply,
    outer_flat_apply 256 512 8 4096 (by omega) (by omega) rfl _ x0 h1 h2 h3 h4 h5 p k ⟨k.val / 8, by omega⟩ ⟨k.val % 8, by omega⟩ rfl rfl,
    slice2_axis1_apply o4 v hs4 p ⟨k.val / 8, by omega⟩ ⟨o4 + k.val / 8, by omega⟩ rfl,
    slice2_axis0_apply o5 w hs5 k q ⟨o5 + k.val, by omega⟩ rfl]

/-- After degree four and the first four chunks of degree five. -/
theorem pay8_at (x0 : Vec Ideal S256x8 .f32) (v34 : FVec Ideal S256x64 .f32) (v40 : FVec Ideal S256x4096 .f32)
    (v41 : FVec Ideal S256x4096 .bf16) (v42 : Vec Ideal S4096x64 .bf16) (v46 : Vec Ideal S32768x64 .bf16) (p : Fin 256) (q : Fin 64) :
    k0_pay8 (F := Ideal) x0 v34 v40 v41 v42 v46 (ix2 p q)
      = v34 (ix2 p q) + ∑ k : Fin 4096, v41 (ix2 p k) * v42 (ix2 k q)
        + ksum x0 v40 v46 p q 0 0 (by omega) (by omega) + ksum x0 v40 v46 p q 512 4096 (by omega) (by omega)
        + ksum x0 v40 v46 p q 1024 8192 (by omega) (by omega) + ksum x0 v40 v46 p q 1536 12288 (by omega) (by omega) := by
  unfold k0_pay8 k0_pay7
  simp only [addf_apply, shapeCast_self]
  rw [mm4096, kchunk_at x0 v40 v46 0 0, kchunk_at x0 v40 v46 512 4096, kchunk_at x0 v40 v46 1024 8192, kchunk_at x0 v40 v46 1536 12288]

/-- After the last four chunks and the bias: the stored value. -/
theorem pay1_at (x0 : Vec Ideal S256x8 .f32) (v40 : FVec Ideal S256x4096 .f32) (v47 : FVec Ideal S32768x64 .bf16)
    (v91 : FVec Ideal S256x64 .f32) (v136 : Vec Ideal S64 .f32) (p : Fin 256) (q : Fin 64) :
    k0_pay1 (F := Ideal) x0 v40 v47 v91 (k0_pay9 (F := Ideal) x0) (k0_pay10 (F := Ideal) v40) v136 (ix2 p q)
      = v91 (ix2 p q) + ksum x0 v40 v47 p q 2048 16384 (by omega) (by omega) + ksum x0 v40 v47 p q 2560 20480 (by omega) (by omega)
        + ksum x0 v40 v47 p q 3072 24576 (by omega) (by omega) + ksum x0 v40 v47 p q 3584 28672 (by omega) (by omega)
        + v136 (ix1 q) := by
  unfold k0_pay1 k0_pay9 k0_pay10
  simp only [addf_apply]
  rw [kchunk_at x0 v40 v47 2048 16384, kchunk_at x0 v40 v47 2560 20480, kchunk_at x0 v40 v47 3072 24576,
    kchunk_at x0 v40 v47 3584 28672, bias_at]

/-! ## The stored block is the layer on the blocks -/

/-- With the fourth power in place of v, chunk c's sum is the specification's chunk c of row p against column q of
    the last stretch. -/
theorem ksum_pow (x0 : Vec Ideal S256x8 .f32) (x6 : Vec Ideal S32768x64 .bf16) (p : Fin 256) (q : Fin 64) (c : ℕ) (hc : c < 8) :
    ksum x0 (k0_pay5 (F := Ideal) x0) x6 p q (512 * c) (4096 * c) (by omega) (by omega)
      = chunk (fun a => x0 (ix2 p a)) (fun k => x6 (ix2 k q)) c hc := by
  unfold ksum chunk
  simp only [pay5_at]

theorem hz2 : (![0, 0] : Fin 2 → Nat) = fun _ => 0 := funext fun a => by fin_cases a <;> rfl
theorem hz1 : (![0] : Fin 1 → Nat) = fun _ => 0 := funext fun a => by fin_cases a; rfl

/-- What the body leaves in the output block, from the blocks it loads: the layer of the specification, row by row
    of the z block against the six transposed stretches and the bias. -/
theorem out_eq (x0 : Vec Ideal S256x8 .f32) (x1 : Vec Ideal S1x64 .f32) (x2 : Vec Ideal S8x64 .bf16) (x3 : Vec Ideal S64x64 .bf16)
    (x4 : Vec Ideal S512x64 .bf16) (x5 : Vec Ideal S4096x64 .bf16) (x6 : Vec Ideal S32768x64 .bf16) (x7 : Vec Ideal S64 .f32) :
    out0_8 (F := Ideal) x0 x1 x2 x3 x4 x5 x6 x7 = Gblk x0 x1 x2 x3 x4 x5 x6 x7 := by
  unfold out0_8
  rw [View.canon_unit_zero hz2]
  simp only [View.ld_unit_zero (S := S256x8) hz2, View.ld_unit_zero (S := S1x64) hz2, View.ld_unit_zero (S := S8x64) hz2,
    View.ld_unit_zero (S := S64x64) hz2, View.ld_unit_zero (S := S512x64) hz2, View.ld_unit_zero (S := S4096x64) hz2,
    View.ld_unit_zero (S := S32768x64) hz2, View.ld_unit_zero (S := S64) hz1]
  funext y
  obtain ⟨p, q, rfl⟩ : ∃ (p : Fin 256) (q : Fin 64), y = ix2 p q := ⟨y 0, y 1, eq_ix2 y⟩
  rw [pay1_at, pay8_at, pay4_at]
  unfold k0_pay6 k0_pay7
  simp only [truncf_apply, shapeCast_self, pay5_at]
  rw [(ksum_pow x0 x6 p q 0 (by omega) : ksum x0 (k0_pay5 (F := Ideal) x0) x6 p q 0 0 _ _ = _),
    (ksum_pow x0 x6 p q 1 (by omega) : ksum x0 (k0_pay5 (F := Ideal) x0) x6 p q 512 4096 _ _ = _),
    (ksum_pow x0 x6 p q 2 (by omega) : ksum x0 (k0_pay5 (F := Ideal) x0) x6 p q 1024 8192 _ _ = _),
    (ksum_pow x0 x6 p q 3 (by omega) : ksum x0 (k0_pay5 (F := Ideal) x0) x6 p q 1536 12288 _ _ = _),
    (ksum_pow x0 x6 p q 4 (by omega) : ksum x0 (k0_pay5 (F := Ideal) x0) x6 p q 2048 16384 _ _ = _),
    (ksum_pow x0 x6 p q 5 (by omega) : ksum x0 (k0_pay5 (F := Ideal) x0) x6 p q 2560 20480 _ _ = _),
    (ksum_pow x0 x6 p q 6 (by omega) : ksum x0 (k0_pay5 (F := Ideal) x0) x6 p q 3072 24576 _ _ = _),
    (ksum_pow x0 x6 p q 7 (by omega) : ksum x0 (k0_pay5 (F := Ideal) x0) x6 p q 3584 28672 _ _ = _)]
  exact poly_eq_chunked (fun k => x0 (ix2 p k)) (x1 (ix2 (0 : Fin 1) q)) (fun k => x2 (ix2 k q)) (fun k => x3 (ix2 k q))
    (fun k => x4 (ix2 k q)) (fun k => x5 (ix2 k q)) (fun k => x6 (ix2 k q)) (x7 (ix1 q))

end Cert.KernelIdeal.Payload

end
-- ==== Proof.Blocks.lean ====
/-
  From the blocks to the whole result array.

  The grid has 16 points; point t stages rows 256·t … 256·t + 255 of z and of the result, and, unchanged at every point,
  the six transposed stretches of W (the arrays the program cut, transposed and re-formatted before the region: a change
  of float format is the identity at the ideal values) and the bias. So a block read at an entry is an argument array at
  an entry (blk0_at … blk7_at): row 256·t + p of z; W at row q and column start-of-stretch + k; b at q. With the
  body's stored block read as the layer on the blocks (Payload.out_eq), what point t writes back is block t of the
  layer over the whole arrays (flushed_eq); the 16 blocks tile the 4096 rows (covered); so the result array ends
  holding Kron.G of the arguments (final, run).
-/
import proofs.«114076_j77111842832565_1_alg».proof.Proof.Gen.KernelIdeal.Value
import proofs.«114076_j77111842832565_1_alg».proof.Proof.Payload
import Idealize.ShloMosaic.Lib.StableHlo.Run

set_option maxRecDepth 16384

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo Cert.Kron
open Idealize.ShloMosaic.Pipeline (Dat)

variable (m : (ℓ : Loc nD τ sig) → Buf (Elt Ideal) ℓ) (ρ : Dev nD → PrngReg)

/-! ## Where each window's block sits at a point -/

/-- The printed index maps over the 16 points: the z window and the result window move one block of rows per point,
    every other window stays at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 1) = 0
    ∧ win0_8.index t (0 : Fin 2) = t.val ∧ win0_8.index t (1 : Fin 2) = 0 :=
  (by decide +kernel : ∀ t : Fin grid0.N, _)

theorem t_lt (t : Fin cfg0.N) : t.val < 16 := by
  have h := t.isLt
  have e : cfg0.N = 16 := N_0
  omega

/-! ## A transposed stretch of W at an entry -/

/-- Columns o … o + n − 1 of W, transposed and re-formatted, read at (k, q): W at row q, column o + k. -/
theorem stretch_at {n : ℕ} {ψ : FTy} (o : ℕ) (W : FVec Ideal S64x37449 .f32)
    (hs : S64x37449.Slices ![0, o] ⟨2, ![64, n]⟩) (ht : (⟨2, ![64, n]⟩ : Shape).Transposes [1, 0] ⟨2, ![n, 64]⟩)
    (hb : ψ.bits < FTy.f32.bits) (k : Fin n) (q : Fin 64) :
    (truncf ψ (transpose ⟨2, ![n, 64]⟩ [1, 0] (extractStridedSlice ⟨2, ![64, n]⟩ ![0, o] W hs) ht) hb : FVec Ideal ⟨2, ![n, 64]⟩ ψ) (ix2 k q)
      = W (ix2 q ⟨o + k.val, Nat.lt_of_lt_of_le (Nat.add_lt_add_left k.isLt o) (hs.2 1)⟩) := by
  rw [truncf_apply, transpose_ix2_apply, slice2_axis1_eq]

/-- The same without the change of format (the constant stretch). -/
theorem stretch_at' {n : ℕ} (o : ℕ) (W : FVec Ideal S64x37449 .f32)
    (hs : S64x37449.Slices ![0, o] ⟨2, ![64, n]⟩) (ht : (⟨2, ![64, n]⟩ : Shape).Transposes [1, 0] ⟨2, ![n, 64]⟩)
    (k : Fin n) (q : Fin 64) :
    transpose ⟨2, ![n, 64]⟩ [1, 0] (extractStridedSlice ⟨2, ![64, n]⟩ ![0, o] W hs) ht (ix2 k q)
      = W (ix2 q ⟨o + k.val, Nat.lt_of_lt_of_le (Nat.add_lt_add_left k.isLt o) (hs.2 1)⟩) := by
  rw [transpose_ix2_apply, slice2_axis1_eq]

/-! ## The arrays the region finds -/

theorem V_v1 (c : Dev nD) : @Eq (S1x64.Idx → EReal) (V m c main_v1)
    (transpose S1x64 [1, 0] (extractStridedSlice S64x1 ![0, 0] (m ((c : Thread nD τ).loc main_arg1)) slices_S64x37449_S64x1_0_0) transposes_S64x1_S1x64_1_0) := by
  dsimp only [Gen.V, Gen.hostOps0]; after_results; all_goals rfl
theorem V_v4 (c : Dev nD) : @Eq (S8x64.Idx → EReal) (V m c main_v4)
    (truncf (F := Ideal) .bf16 (transpose S8x64 [1, 0] (extractStridedSlice S64x8 ![0, 1] (m ((c : Thread nD τ).loc main_arg1)) slices_S64x37449_S64x8_0_1) transposes_S64x8_S8x64_1_0) bitsLt_bf16_f32) := by
  dsimp only [Gen.V, Gen.hostOps0]; after_results; all_goals rfl
theorem V_v7 (c : Dev nD) : @Eq (S64x64.Idx → EReal) (V m c main_v7)
    (truncf (F := Ideal) .bf16 (transpose S64x64 [1, 0] (extractStridedSlice S64x64 ![0, 9] (m ((c : Thread nD τ).loc main_arg1)) slices_S64x37449_S64x64_0_9) transposes_S64x64_S64x64_1_0) bitsLt_bf16_f32) := by
  dsimp only [Gen.V, Gen.hostOps0]; after_results; all_goals rfl
theorem V_v10 (c : Dev nD) : @Eq (S512x64.Idx → EReal) (V m c main_v10)
    (truncf (F := Ideal) .bf16 (transpose S512x64 [1, 0] (extractStridedSlice S64x512 ![0, 73] (m ((c : Thread nD τ).loc main_arg1)) slices_S64x37449_S64x512_0_73) transposes_S64x512_S512x64_1_0) bitsLt_bf16_f32) := by
  dsimp only [Gen.V, Gen.hostOps0]; after_results; all_goals rfl
theorem V_v13 (c : Dev nD) : @Eq (S4096x64.Idx → EReal) (V m c main_v13)
    (truncf (F := Ideal) .bf16 (transpose S4096x64 [1, 0] (extractStridedSlice S64x4096 ![0, 585] (m ((c : Thread nD τ).loc main_arg1)) slices_S64x37449_S64x4096_0_585) transposes_S64x4096_S4096x64_1_0) bitsLt_bf16_f32) := by
  dsimp only [Gen.V, Gen.hostOps0]; after_results; all_goals rfl
theorem V_v16 (c : Dev nD) : @Eq (S32768x64.Idx → EReal) (V m c main_v16)
    (truncf (F := Ideal) .bf16 (transpose S32768x64 [1, 0] (extractStridedSlice S64x32768 ![0, 4681] (m ((c : Thread nD τ).loc main_arg1)) slices_S64x37449_S64x32768_0_4681) transposes_S64x32768_S32768x64_1_0) bitsLt_bf16_f32) := by
  dsimp only [Gen.V, Gen.hostOps0]; after_results; all_goals rfl

/-! ## The blocks at a point, entry by entry -/

/-- The z block at point t is rows 256·t … of z. -/
theorem blk0_at (c : Dev nD) (t : Fin cfg0.N) (p : Fin 256) (k : Fin 8) :
    iblk m c 0 t (ix2 p k)
      = m ((c : Thread nD τ).loc main_arg0) (ix2 (⟨t.val * 256 + p.val, by have := t_lt t; have := p.isLt; omega⟩ : Fin 4096) k) := by
  obtain ⟨e0, e1, -⟩ := idx_facts t
  show V m c main_arg0 (((cfg0.win 0).blk t).view.emb (ix2 p k)) = _
  rw [V_main_arg0]
  refine congrArg _ (funext fun a => Fin.ext ?_)
  match a with
  | ⟨0, _⟩ => show win0_0.index t (0 : Fin 2) * 256 + 1 * p.val = t.val * 256 + p.val; omega
  | ⟨1, _⟩ => show win0_0.index t (1 : Fin 2) * 8 + 1 * k.val = k.val; omega

/-- The constant stretch: column 0 of W. -/
theorem blk1_at (c : Dev nD) (t : Fin cfg0.N) (u : Fin 1) (q : Fin 64) :
    iblk m c 1 t (ix2 u q) = m ((c : Thread nD τ).loc main_arg1) (ix2 q (⟨0, by omega⟩ : Fin 37449)) := by
  obtain ⟨-, -, e0, e1, -⟩ := idx_facts t
  have he : ((cfg0.win 1).blk t).view.emb (ix2 u q) = ix2 u q := by
    funext a; apply Fin.ext
    match a with
    | ⟨0, _⟩ => show win0_1.index t (0 : Fin 2) * 1 + 1 * u.val = u.val; omega
    | ⟨1, _⟩ => show win0_1.index t (1 : Fin 2) * 64 + 1 * q.val = q.val; omega
  show V m c main_v1 (((cfg0.win 1).blk t).view.emb (ix2 u q)) = _
  rw [he, V_v1, stretch_at' 0 _ _ _ u q]
  refine congrArg _ (congrArg _ (Fin.ext ?_))
  show 0 + u.val = 0
  omega

/-- Degree one: columns 1 … 8 of W. -/
theorem blk2_at (c : Dev nD) (t : Fin cfg0.N) (k : Fin 8) (q : Fin 64) :
    iblk m c 2 t (ix2 k q) = m ((c : Thread nD τ).loc main_arg1) (ix2 q (⟨1 + k.val, by have := k.isLt; omega⟩ : Fin 37449)) := by
  obtain ⟨-, -, -, -, e0, e1, -⟩ := idx_facts t
  have he : ((cfg0.win 2).blk t).view.emb (ix2 k q) = ix2 k q := by
    funext a; apply Fin.ext
    match a with
    | ⟨0, _⟩ => show win0_2.index t (0 : Fin 2) * 8 + 1 * k.val = k.val; omega
    | ⟨1, _⟩ => show win0_2.index t (1 : Fin 2) * 64 + 1 * q.val = q.val; omega
  show V m c main_v4 (((cfg0.win 2).blk t).view.emb (ix2 k q)) = _
  rw [he, V_v4, stretch_at 1 _ _ _ _ k q]

/-- Degree two: columns 9 … 72. -/
theorem blk3_at (c : Dev nD) (t : Fin cfg0.N) (k : Fin 64) (q : Fin 64) :
    iblk m c 3 t (ix2 k q) = m ((c : Thread nD τ).loc main_arg1) (ix2 q (⟨9 + k.val, by have := k.isLt; omega⟩ : Fin 37449)) := by
  obtain ⟨-, -, -, -, -, -, e0, e1, -⟩ := idx_facts t
  have he : ((cfg0.win 3).blk t).view.emb (ix2 k q) = ix2 k q := by
    funext a; apply Fin.ext
    match a with
    | ⟨0, _⟩ => show win0_3.index t (0 : Fin 2) * 64 + 1 * k.val = k.val; omega
    | ⟨1, _⟩ => show win0_3.index t (1 : Fin 2) * 64 + 1 * q.val = q.val; omega
  show V m c main_v7 (((cfg0.win 3).blk t).view.emb (ix2 k q)) = _
  rw [he, V_v7, stretch_at 9 _ _ _ _ k q]

/-- Degree three: columns 73 … 584. -/
theorem blk4_at (c : Dev nD) (t : Fin cfg0.N) (k : Fin 512) (q : Fin 64) :
    iblk m c 4 t (ix2 k q) = m ((c : Thread nD τ).loc main_arg1) (ix2 q (⟨73 + k.val, by have := k.isLt; omega⟩ : Fin 37449)) := by
  obtain ⟨-, -, -, -, -, -, -, -, e0, e1, -⟩ := idx_facts t
  have he : ((cfg0.win 4).blk t).view.emb (ix2 k q) = ix2 k q := by
    funext a; apply Fin.ext
    match a with
    | ⟨0, _⟩ => show win0_4.index t (0 : Fin 2) * 512 + 1 * k.val = k.val; omega
    | ⟨1, _⟩ => show win0_4.index t (1 : Fin 2) * 64 + 1 * q.val = q.val; omega
  show V m c main_v10 (((cfg0.win 4).blk t).view.emb (ix2 k q)) = _
  rw [he, V_v10, stretch_at 73 _ _ _ _ k q]

/-- Degree four: columns 585 … 4680. -/
theorem blk5_at (c : Dev nD) (t : Fin cfg0.N) (k : Fin 4096) (q : Fin 64) :
    iblk m c 5 t (ix2 k q) = m ((c : Thread nD τ).loc main_arg1) (ix2 q (⟨585 + k.val, by have := k.isLt; omega⟩ : Fin 37449)) := by
  obtain ⟨-, -, -, -, -, -, -, -, -, -, e0, e1, -⟩ := idx_facts t
  have he : ((cfg0.win 5).blk t).view.emb (ix2 k q) = ix2 k q := by
    funext a; apply Fin.ext
    match a with
    | ⟨0, _⟩ => show win0_5.index t (0 : Fin 2) * 4096 + 1 * k.val = k.val; omega
    | ⟨1, _⟩ => show win0_5.index t (1 : Fin 2) * 64 + 1 * q.val = q.val; omega
  show V m c main_v13 (((cfg0.win 5).blk t).view.emb (ix2 k q)) = _
  rw [he, V_v13, stretch_at 585 _ _ _ _ k q]

/-- Degree five: columns 4681 … 37448. -/
theorem blk6_at (c : Dev nD) (t : Fin cfg0.N) (k : Fin 32768) (q : Fin 64) :
    iblk m c 6 t (ix2 k q) = m ((c : Thread nD τ).loc main_arg1) (ix2 q (⟨4681 + k.val, by have := k.isLt; omega⟩ : Fin 37449)) := by
  obtain ⟨-, -, -, -, -, -, -, -, -, -, -, -, e0, e1, -⟩ := idx_facts t
  have he : ((cfg0.win 6).blk t).view.emb (ix2 k q) = ix2 k q := by
    funext a; apply Fin.ext
    match a with
    | ⟨0, _⟩ => show win0_6.index t (0 : Fin 2) * 32768 + 1 * k.val = k.val; omega
    | ⟨1, _⟩ => show win0_6.index t (1 : Fin 2) * 64 + 1 * q.val = q.val; omega
  show V m c main_v16 (((cfg0.win 6).blk t).view.emb (ix2 k q)) = _
  rw [he, V_v16, stretch_at 4681 _ _ _ _ k q]

/-- The bias. -/
theorem blk7_at (c : Dev nD) (t : Fin cfg0.N) (q : Fin 64) :
    iblk m c 7 t (ix1 q) = m ((c : Thread nD τ).loc main_arg2) (ix1 q) := by
  obtain ⟨-, -, -, -, -, -, -, -, -, -, -, -, -, -, e0, -⟩ := idx_facts t
  show V m c main_arg2 (((cfg0.win 7).blk t).view.emb (ix1 q)) = _
  rw [V_main_arg2]
  refine congrArg _ (funext fun a => Fin.ext ?_)
  match a with
  | ⟨0, _⟩ => show win0_7.index t (0 : Fin 1) * 64 + 1 * q.val = q.val; omega

/-- Entry (p, q) of the result block at point t is entry (256·t + p, q) of the result array. -/
theorem emb8 (t : Fin cfg0.N) (p : Fin 256) (q : Fin 64) :
    ((cfg0.win 8).blk t).view.emb (ix2 p q) = ix2 (⟨t.val * 256 + p.val, by have := t_lt t; have := p.isLt; omega⟩ : Fin 4096) q := by
  obtain ⟨-, -, -, -, -, -, -, -, -, -, -, -, -, -, -, e0, e1⟩ := idx_facts t
  funext a; apply Fin.ext
  match a with
  | ⟨0, _⟩ => show win0_8.index t (0 : Fin 2) * 256 + 1 * p.val = t.val * 256 + p.val; omega
  | ⟨1, _⟩ => show win0_8.index t (1 : Fin 2) * 64 + 1 * q.val = q.val; omega

/-! ## What a point writes back, the cover, and the array -/

/-- Point t writes back block t of the layer over the whole argument arrays. -/
theorem flushed_eq (c : Dev nD) (t : Fin cfg0.N) :
    (dats m 0 c).flushed 8 t = ((cfg0.win 8).blk t).view.read (Elt Ideal)
      (G (m ((c : Thread nD τ).loc main_arg0)) (m ((c : Thread nD τ).loc main_arg1)) (m ((c : Thread nD τ).loc main_arg2))) := by
  rw [Value.flushed8, Payload.out_eq]
  funext y
  obtain ⟨p, q, rfl⟩ : ∃ (p : Fin 256) (q : Fin 64), y = ix2 p q := ⟨y 0, y 1, eq_ix2 y⟩
  show Gblk (iblk m c 0 t) (iblk m c 1 t) (iblk m c 2 t) (iblk m c 3 t) (iblk m c 4 t) (iblk m c 5 t) (iblk m c 6 t) (iblk m c 7 t) (ix2 p q)
    = G (m ((c : Thread nD τ).loc main_arg0)) (m ((c : Thread nD τ).loc main_arg1)) (m ((c : Thread nD τ).loc main_arg2))
        (((cfg0.win 8).blk t).view.emb (ix2 p q))
  rw [emb8]
  unfold Gblk G
  simp only [blk0_at, blk1_at, blk2_at, blk3_at, blk4_at, blk5_at, blk6_at, blk7_at]

/-- An index of the result array is in point t's block iff each coordinate is in the block's range. -/
theorem mem_blk8 (t : Fin cfg0.N) (i : S4096x64.Idx) :
    i ∈ ((cfg0.win 8).blk t).view.set ↔ ∀ a : Fin 2, win0_8.index t a * S256x64.size a ≤ (i a).val ∧ (i a).val < win0_8.index t a * S256x64.size a + S256x64.size a := by
  show i ∈ ((View.whole main_v17).slice (win0_8.rect t)).set ↔ _
  rw [View.set_slice_whole, Rect.mem_set_unit]
  exact Iff.rfl

/-- Row r of the result lies in the block of point r / 256: the 16 blocks tile the array. -/
theorem covered (i : S4096x64.Idx) :
    ∃ t : Fin cfg0.N, (cfg0.win 8).flush t = true ∧ i ∈ ((cfg0.win 8).blk t).view.set := by
  have hi0 : (i 0).val < 4096 := (i 0).isLt
  have hi1 : (i 1).val < 64 := (i 1).isLt
  have hN : cfg0.N = 16 := N_0
  let t : Fin cfg0.N := ⟨(i 0).val / 256, by rw [hN]; omega⟩
  obtain ⟨-, -, -, -, -, -, -, -, -, -, -, -, -, -, -, e0, e1⟩ := idx_facts t
  have ht : t.val = (i 0).val / 256 := rfl
  refine ⟨t, flush0_8 t, ?_⟩
  rw [mem_blk8]
  intro a
  match a with
  | ⟨0, _⟩ => show win0_8.index t (0 : Fin 2) * 256 ≤ (i 0).val ∧ (i 0).val < win0_8.index t (0 : Fin 2) * 256 + 256; omega
  | ⟨1, _⟩ => show win0_8.index t (1 : Fin 2) * 64 ≤ (i 1).val ∧ (i 1).val < win0_8.index t (1 : Fin 2) * 64 + 64; omega

/-- The result array after the run is the layer of the argument arrays. -/
theorem final (c : Dev nD) : (dats m 0 c).arrAt 8 cfg0.N
    = G (m ((c : Thread nD τ).loc main_arg0)) (m ((c : Thread nD τ).loc main_arg1)) (m ((c : Thread nD τ).loc main_arg2)) :=
  (dats m 0 c).arrAt_eq_of_cover 8 _ (fun t _ => flushed_eq m c t) covered

/-- Every weakly fair execution of the idealized kernel ends with the result array at the layer of the arguments and the
    arguments unchanged. -/
theorem run : θ_run defs (onTc (τ := τ) (main (F := Ideal))) ⟨m, fun _ => 0, ρ⟩ fun r => ∀ c : Dev nD,
      r.2.mem ((c : Thread nD τ).loc main_v17)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Blocks

end
-- ==== Proof.RefSide.lean ====
/-
  The reference, read at one entry (r, q) of its 4096 × 64 result, at the ideal values.

  It builds the Kronecker powers of every row of z by the same outer product and flattening as the kernel, so its second
  to fifth power arrays at (r, k) are pow2 … pow5 of row r (v6_at, v12_at, v18_at, v24_at); it joins a column of ones,
  z and the four powers side by side into the 37449 feature columns, so a feature column read inside one stretch is
  that stretch's array at the column less the stretch's start (feat_at0 … feat_at5); and its product with the
  transposed weights, at (r, q), is the sum over the 37449 columns of feature times W(q, column). Split over the six
  stretches (Kron.sum_pieces), with 1 · w = w for the column of ones, that is the layer of the specification (ref_eq).
-/
import proofs.«114076_j77111842832565_1_alg».proof.Proof.Gen.ReferenceIdeal.Read
import proofs.«114076_j77111842832565_1_alg».proof.Proof.KronSpec
import Idealize.ShloMosaic.Lib.IdealHost

noncomputable section

open scoped BigOperators

namespace Cert.ReferenceIdeal.RefValue

open Cert.ReferenceIdeal Cert.ReferenceIdeal.Gen Cert.ReferenceIdeal.Read Idealize.ShloMosaic Idealize.ShloMosaic.ValueIdx Cert.Kron

/-! ## The powers of a row -/

theorem v6_at (z : (⟨S4096x8, .f32⟩ : BufTy).Contents (Elt Ideal)) (r : Fin 4096) (k : Fin 64) :
    val_main_v6 (F := Ideal) z (ix2 r k) = pow2 (fun a => z (ix2 r a)) k := by
  have hr := r.isLt
  have hk := k.isLt
  rw [val_main_v6_apply, val_main_v5_apply, val_main_v3_apply, val_main_v1_apply, val_main_v4_apply, val_main_v2_apply]
  unfold pow2
  refine congrArg₂ (fun (u v : EReal) => u * v) (congrArg z ?_) (congrArg z ?_)
  · funext a; apply Fin.ext
    match a with
    | ⟨0, _⟩ => show (r.val * 64 + k.val) / 64 = r.val; omega
    | ⟨1, _⟩ => show (r.val * 64 + k.val) / 8 % 8 = k.val / 8; omega
  · funext a; apply Fin.ext
    match a with
    | ⟨0, _⟩ => show (r.val * 64 + k.val) / 64 = r.val; omega
    | ⟨1, _⟩ => show (r.val * 64 + k.val) % 8 = k.val % 8; omega

theorem v12_at (z : (⟨S4096x8, .f32⟩ : BufTy).Contents (Elt Ideal)) (r : Fin 4096) (k : Fin 512) :
    val_main_v12 (F := Ideal) z (ix2 r k) = pow3 (fun a => z (ix2 r a)) k := by
  have hr := r.isLt
  have hk := k.isLt
  rw [val_main_v12_apply, val_main_v11_apply, val_main_v9_apply, val_main_v7_apply, val_main_v10_apply, val_main_v8_apply]
  have e1 : idx_main_v7 (idx_main_v9 (idx_main_v12 (ix2 r k))) = ix2 r (⟨k.val / 8, by omega⟩ : Fin 64) := by
    funext a; apply Fin.ext
    match a with
    | ⟨0, _⟩ => show (r.val * 512 + k.val) / 512 = r.val; omega
    | ⟨1, _⟩ => show (r.val * 512 + k.val) / 8 % 64 = k.val / 8; omega
  have e2 : idx_main_v8 (idx_main_v10 (idx_main_v12 (ix2 r k))) = ix2 r (⟨k.val % 8, by omega⟩ : Fin 8) := by
    funext a; apply Fin.ext
    match a with
    | ⟨0, _⟩ => show (r.val * 512 + k.val) / 512 = r.val; omega
    | ⟨1, _⟩ => show (r.val * 512 + k.val) % 8 = k.val % 8; omega
  rw [e1, e2, v6_at]
  rfl

theorem v18_at (z : (⟨S4096x8, .f32⟩ : BufTy).Contents (Elt Ideal)) (r : Fin 4096) (k : Fin 4096) :
    val_main_v18 (F := Ideal) z (ix2 r k) = pow4 (fun a => z (ix2 r a)) k := by
  have hr := r.isLt
  have hk := k.isLt
  rw [val_main_v18_apply, val_main_v17_apply, val_main_v15_apply, val_main_v13_apply, val_main_v16_apply, val_main_v14_apply]
  have e1 : idx_main_v13 (idx_main_v15 (idx_main_v18 (ix2 r k))) = ix2 r (⟨k.val / 8, by omega⟩ : Fin 512) := by
    funext a; apply Fin.ext
    match a with
    | ⟨0, _⟩ => show (r.val * 4096 + k.val) / 4096 = r.val; omega
    | ⟨1, _⟩ => show (r.val * 4096 + k.val) / 8 % 512 = k.val / 8; omega
  have e2 : idx_main_v14 (idx_main_v16 (idx_main_v18 (ix2 r k))) = ix2 r (⟨k.val % 8, by omega⟩ : Fin 8) := by
    funext a; apply Fin.ext
    match a with
    | ⟨0, _⟩ => show (r.val * 4096 + k.val) / 4096 = r.val; omega
    | ⟨1, _⟩ => show (r.val * 4096 + k.val) % 8 = k.val % 8; omega
  rw [e1, e2, v12_at]
  rfl

theorem v24_at (z : (⟨S4096x8, .f32⟩ : BufTy).Contents (Elt Ideal)) (r : Fin 4096) (k : Fin 32768) :
    val_main_v24 (F := Ideal) z (ix2 r k) = pow5 (fun a => z (ix2 r a)) k := by
  have hr := r.isLt
  have hk := k.isLt
  rw [val_main_v24_apply, val_main_v23_apply, val_main_v21_apply, val_main_v19_apply, val_main_v22_apply, val_main_v20_apply]
  have e1 : idx_main_v19 (idx_main_v21 (idx_main_v24 (ix2 r k))) = ix2 r (⟨k.val / 8, by omega⟩ : Fin 4096) := by
    funext a; apply Fin.ext
    match a with
    | ⟨0, _⟩ => show (r.val * 32768 + k.val) / 32768 = r.val; omega
    | ⟨1, _⟩ => show (r.val * 32768 + k.val) / 8 % 4096 = k.val / 8; omega
  have e2 : idx_main_v20 (idx_main_v22 (idx_main_v24 (ix2 r k))) = ix2 r (⟨k.val % 8, by omega⟩ : Fin 8) := by
    funext a; apply Fin.ext
    match a with
    | ⟨0, _⟩ => show (r.val * 32768 + k.val) / 32768 = r.val; omega
    | ⟨1, _⟩ => show (r.val * 32768 + k.val) % 8 = k.val % 8; omega
  rw [e1, e2, v18_at]
  rfl

/-! ## A feature column inside each stretch -/

/-- The six arrays joined side by side: ones, z, and the second to fifth powers. -/
abbrev pieces (z : (⟨S4096x8, .f32⟩ : BufTy).Contents (Elt Ideal)) : List ((s : Shape) × (s.Idx → EReal)) :=
  [⟨S4096x1, val_main_v0 (F := Ideal)⟩, ⟨S4096x8, z⟩, ⟨S4096x64, val_main_v6 (F := Ideal) z⟩, ⟨S4096x512, val_main_v12 (F := Ideal) z⟩,
    ⟨S4096x4096, val_main_v18 (F := Ideal) z⟩, ⟨S4096x32768, val_main_v24 (F := Ideal) z⟩]

theorem feat_at0 (z : (⟨S4096x8, .f32⟩ : BufTy).Contents (Elt Ideal)) (r : Fin 4096) :
    val_main_v25 (F := Ideal) z (ix2 r (⟨0, by omega⟩ : Fin 37449)) = 1 := by
  unfold val_main_v25
  refine (concatenate_apply_piece (t := S4096x37449) (1 : Fin 2) (pieces z) _ (ix2 r (⟨0, by omega⟩ : Fin 37449)) 0 (by show (0 : ℕ) < 6; omega) S4096x1 (val_main_v0 (F := Ideal)) rfl rfl 0 rfl
    (ix2 r (0 : Fin 1)) (fun b hb => ?_) rfl).trans ?_
  · match b with
    | ⟨0, _⟩ => rfl
    | ⟨1, _⟩ => exact absurd (Fin.ext rfl) hb
  · rw [val_main_v0_apply, val_main_cst_apply]
    exact Ideal.ofBits_one_f32

theorem feat_at1 (z : (⟨S4096x8, .f32⟩ : BufTy).Contents (Elt Ideal)) (r : Fin 4096) (k : Fin 8) :
    val_main_v25 (F := Ideal) z (ix2 r (⟨1 + k.val, by have := k.isLt; omega⟩ : Fin 37449)) = z (ix2 r k) := by
  unfold val_main_v25
  refine concatenate_apply_piece (t := S4096x37449) (1 : Fin 2) (pieces z) _ (ix2 r (⟨1 + k.val, by have := k.isLt; omega⟩ : Fin 37449)) 1 (by show (1 : ℕ) < 6; omega) S4096x8 z rfl rfl 1 rfl
    (ix2 r k) (fun b hb => ?_) rfl
  match b with
  | ⟨0, _⟩ => rfl
  | ⟨1, _⟩ => exact absurd (Fin.ext rfl) hb

theorem feat_at2 (z : (⟨S4096x8, .f32⟩ : BufTy).Contents (Elt Ideal)) (r : Fin 4096) (k : Fin 64) :
    val_main_v25 (F := Ideal) z (ix2 r (⟨9 + k.val, by have := k.isLt; omega⟩ : Fin 37449)) = pow2 (fun a => z (ix2 r a)) k := by
  unfold val_main_v25
  refine (concatenate_apply_piece (t := S4096x37449) (1 : Fin 2) (pieces z) _ (ix2 r (⟨9 + k.val, by have := k.isLt; omega⟩ : Fin 37449)) 2 (by show (2 : ℕ) < 6; omega) S4096x64 (val_main_v6 (F := Ideal) z) rfl rfl 9 rfl
    (ix2 r k) (fun b hb => ?_) rfl).trans (v6_at z r k)
  match b with
  | ⟨0, _⟩ => rfl
  | ⟨1, _⟩ => exact absurd (Fin.ext rfl) hb

theorem feat_at3 (z : (⟨S4096x8, .f32⟩ : BufTy).Contents (Elt Ideal)) (r : Fin 4096) (k : Fin 512) :
    val_main_v25 (F := Ideal) z (ix2 r (⟨73 + k.val, by have := k.isLt; omega⟩ : Fin 37449)) = pow3 (fun a => z (ix2 r a)) k := by
  unfold val_main_v25
  refine (concatenate_apply_piece (t := S4096x37449) (1 : Fin 2) (pieces z) _ (ix2 r (⟨73 + k.val, by have := k.isLt; omega⟩ : Fin 37449)) 3 (by show (3 : ℕ) < 6; omega) S4096x512 (val_main_v12 (F := Ideal) z) rfl rfl 73 rfl
    (ix2 r k) (fun b hb => ?_) rfl).trans (v12_at z r k)
  match b with
  | ⟨0, _⟩ => rfl
  | ⟨1, _⟩ => exact absurd (Fin.ext rfl) hb

theorem feat_at4 (z : (⟨S4096x8, .f32⟩ : BufTy).Contents (Elt Ideal)) (r : Fin 4096) (k : Fin 4096) :
    val_main_v25 (F := Ideal) z (ix2 r (⟨585 + k.val, by have := k.isLt; omega⟩ : Fin 37449)) = pow4 (fun a => z (ix2 r a)) k := by
  unfold val_main_v25
  refine (concatenate_apply_piece (t := S4096x37449) (1 : Fin 2) (pieces z) _ (ix2 r (⟨585 + k.val, by have := k.isLt; omega⟩ : Fin 37449)) 4 (by show (4 : ℕ) < 6; omega) S4096x4096 (val_main_v18 (F := Ideal) z) rfl rfl 585 rfl
    (ix2 r k) (fun b hb => ?_) rfl).trans (v18_at z r k)
  match b with
  | ⟨0, _⟩ => rfl
  | ⟨1, _⟩ => exact absurd (Fin.ext rfl) hb

theorem feat_at5 (z : (⟨S4096x8, .f32⟩ : BufTy).Contents (Elt Ideal)) (r : Fin 4096) (k : Fin 32768) :
    val_main_v25 (F := Ideal) z (ix2 r (⟨4681 + k.val, by have := k.isLt; omega⟩ : Fin 37449)) = pow5 (fun a => z (ix2 r a)) k := by
  unfold val_main_v25
  refine (concatenate_apply_piece (t := S4096x37449) (1 : Fin 2) (pieces z) _ (ix2 r (⟨4681 + k.val, by have := k.isLt; omega⟩ : Fin 37449)) 5 (by show (5 : ℕ) < 6; omega) S4096x32768 (val_main_v24 (F := Ideal) z) rfl rfl 4681 rfl
    (ix2 r k) (fun b hb => ?_) rfl).trans (v24_at z r k)
  match b with
  | ⟨0, _⟩ => rfl
  | ⟨1, _⟩ => exact absurd (Fin.ext rfl) hb

/-! ## The product's operand indices, and the bias -/

theorem lidx_eq (r : Fin 4096) (q : Fin 64) (t : Fin 37449) : lidx_main_v27 (ix2 r q) t = ix2 r t :=
  funext fun a => match a with | ⟨0, _⟩ => rfl | ⟨1, _⟩ => rfl

theorem wt_at (W : (⟨S64x37449, .f32⟩ : BufTy).Contents (Elt Ideal)) (r : Fin 4096) (q : Fin 64) (t : Fin 37449) :
    val_main_v26 (F := Ideal) W (ridx_main_v27 (ix2 r q) t) = W (ix2 q t) := by
  rw [val_main_v26_apply]
  exact congrArg W (funext fun a => match a with | ⟨0, _⟩ => rfl | ⟨1, _⟩ => rfl)

theorem bias_idx (r : Fin 4096) (q : Fin 64) : idx_main_v28 (idx_main_v29 (ix2 r q)) = ix1 q :=
  funext fun a => match a with | ⟨0, _⟩ => rfl

/-! ## The reference is the layer -/

theorem ref_eq (z : (⟨S4096x8, .f32⟩ : BufTy).Contents (Elt Ideal)) (W : (⟨S64x37449, .f32⟩ : BufTy).Contents (Elt Ideal))
    (b : (⟨S64, .f32⟩ : BufTy).Contents (Elt Ideal)) :
    val_main_v30 (F := Ideal) z W b = G z W b := by
  funext i
  obtain ⟨r, q, rfl⟩ : ∃ (r : Fin 4096) (q : Fin 64), i = ix2 r q := ⟨i 0, i 1, eq_ix2 i⟩
  rw [val_main_v30_apply, val_main_v27_apply, val_main_v29_apply, val_main_v28_apply, sum_pieces, bias_idx]
  simp only [lidx_eq, wt_at, feat_at0, feat_at1, feat_at2, feat_at3, feat_at4, feat_at5]
  rw [one_mul]
  rfl

end Cert.ReferenceIdeal.RefValue

end
-- ==== Proof.lean ====
/-
  A polynomial-feature layer: for each of 4096 rows x of z (eight entries), the concatenation of 1, x and the Kronecker
  powers x⊗², …, x⊗⁵ (37449 features in all) is multiplied into the 64 × 37449 weight matrix W and the bias b is added.

  The reference forms the 4096 × 37449 feature array and takes one product with Wᵀ. The kernel never forms it: on a grid
  of 16 blocks of 256 rows it builds the powers of its rows in place and adds up, degree by degree, the product of each
  power with the matching stretch of columns of W (cut out, transposed and re-formatted before the call), the fifth
  degree in eight chunks. Over the extended reals a change of float format is the identity and a matrix product is a
  plain sum, so both are  W(q,0) + Σ x·W(q,1+·) + Σ x⊗²·W(q,9+·) + … + Σ x⊗⁵·W(q,4681+·) + b(q)  at every entry
  (r, q): the reference because a sum over the 37449 feature columns splits over the six stretches and 1·w = w, the
  kernel because 0 + w = w and the fifth stretch's sum splits over the eight chunks. Only commutativity and
  associativity of addition and the unit laws are used, so the precondition is never opened.

  KronSpec states the layer and the two splittings; RefSide reads the reference's result as the layer; Payload reads the
  kernel body's stored block as the layer on the blocks; Blocks carries that from the blocks to the whole result
  array. The kernel rewrote nothing when it was idealized, so there is nothing to preserve.
-/
import proofs.«114076_j77111842832565_1_alg».proof.Defs
import proofs.«114076_j77111842832565_1_alg».proof.Proof.Gen.Kernel
import proofs.«114076_j77111842832565_1_alg».proof.Proof.Gen.Kernel.Skeleton
import proofs.«114076_j77111842832565_1_alg».proof.Proof.Gen.Kernel.Launch
import proofs.«114076_j77111842832565_1_alg».proof.Proof.Gen.Kernel.Points
import proofs.«114076_j77111842832565_1_alg».proof.Proof.Gen.Kernel.Frame
import proofs.«114076_j77111842832565_1_alg».proof.Proof.Gen.KernelIdeal
import proofs.«114076_j77111842832565_1_alg».proof.Proof.Gen.KernelIdeal.Skeleton
import proofs.«114076_j77111842832565_1_alg».proof.Proof.Gen.KernelIdeal.Launch
import proofs.«114076_j77111842832565_1_alg».proof.Proof.Gen.KernelIdeal.Points
import proofs.«114076_j77111842832565_1_alg».proof.Proof.Gen.KernelIdeal.Frame
import proofs.«114076_j77111842832565_1_alg».proof.Proof.Gen.ReferenceIdeal
import proofs.«114076_j77111842832565_1_alg».proof.Proof.Gen.Pre_finite_inputs
import proofs.«114076_j77111842832565_1_alg».proof.Proof.Gen.KernelIdeal.Value
import proofs.«114076_j77111842832565_1_alg».proof.Proof.Gen.ReferenceIdeal.Run
import proofs.«114076_j77111842832565_1_alg».proof.Proof.Gen.ReferenceIdeal.Read
import proofs.«114076_j77111842832565_1_alg».proof.Proof.Blocks
import proofs.«114076_j77111842832565_1_alg».proof.Proof.RefSide
import Idealize.ShloMosaic.Adequacy
import Idealize.ShloMosaic.Init

noncomputable section

namespace Cert.Proof

open Idealize.ShloMosaic Idealize.SL.Sem

/-- Both idealized programs, from memories that agree on z, W and b, end with the layer of those arrays in their
    result: the kernel by its blocks, the reference by its one product. -/
theorem algebraic : Cert.algebraic_KernelIdeal_ReferenceIdeal := by
  intro m ρ m' ρ' _ hagree
  refine ⟨fun c => Cert.Kron.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Blocks.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v30_eq, Cert.ReferenceIdeal.RefValue.ref_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2)
      (Cert.ReferenceIdeal.Value.run (F := Ideal) m ρ),
    trivial,
    algebraic⟩

end Cert.Proof

end
